-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S256x32 : Shape := ⟨2, ![256, 32]⟩
abbrev S256x256 : Shape := ⟨2, ![256, 256]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S1x256x512x512 .f32) (main_arg1 : FVec F S256x32 .f32) (main_arg2 : FVec F S256x32 .f32) (main_arg3 : FVec F S256x256 .f32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S1x256x512x512 : Shape := ⟨4, ![1, 256, 512, 512]⟩
abbrev S256x32 : Shape := ⟨2, ![256, 32]⟩
abbrev S256x256 : Shape := ⟨2, ![256, 256]⟩
abbrev S262144x256 : Shape := ⟨2, ![262144, 256]⟩
abbrev S_ : Shape := ⟨0, ![]⟩
abbrev S32 : Shape := ⟨1, ![32]⟩
abbrev S1x32 : Shape := ⟨2, ![1, 32]⟩
abbrev S262144x32 : Shape := ⟨2, ![262144, 32]⟩
abbrev S2048x256 : Shape := ⟨2, ![2048, 256]⟩
abbrev S2048x32 : Shape := ⟨2, ![2048, 32]⟩
abbrev S2048 : Shape := ⟨1, ![2048]⟩
abbrev S2048x1 : Shape := ⟨2, ![2048, 1]⟩
abbrev S32x256 : Shape := ⟨2, ![32, 256]⟩
abbrev S32x32 : Shape := ⟨2, ![32, 32]⟩
abbrev S4096x32 : Shape := ⟨2, ![4096, 32]⟩
abbrev S4096x256 : Shape := ⟨2, ![4096, 256]⟩

abbrev nBuf : Space → Nat
  | .hbm => 43
  | .vmem => 14
  | .smem => 0
  | _ => 0

abbrev bufTy : (tb : Table) → Fin (tcTables nBuf tb) → BufTy
  | .hbm, ⟨0, _⟩ => ⟨S1x256x512x512, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S262144x256, .f32⟩
  | .hbm, ⟨5, _⟩ => ⟨S_, .f32⟩
  | .hbm, ⟨6, _⟩ => ⟨S256x32, .f32⟩
  | .hbm, ⟨7, _⟩ => ⟨S256x32, .f32⟩
  | .hbm, ⟨8, _⟩ => ⟨S256x32, .f32⟩
  | .hbm, ⟨9, _⟩ => ⟨S256x32, .f32⟩
  | .hbm, ⟨10, _⟩ => ⟨S256x32, .f32⟩
  | .hbm, ⟨11, _⟩ => ⟨S256x32, .f32⟩
  | .hbm, ⟨12, _⟩ => ⟨S_, .f32⟩
  | .hbm, ⟨13, _⟩ => ⟨S32, .f32⟩
  | .hbm, ⟨14, _⟩ => ⟨S1x32, .f32⟩
  | .hbm, ⟨15, _⟩ => ⟨S262144x32, .bf16⟩
  | .hbm, ⟨16, _⟩ => ⟨S1x32, .f32⟩
  | .hbm, ⟨17, _⟩ => ⟨S256x32, .f32⟩
  | .hbm, ⟨18, _⟩ => ⟨S32, .f32⟩
  | .hbm, ⟨19, _⟩ => ⟨S1x32, .f32⟩
  | .hbm, ⟨20, _⟩ => ⟨S256x32, .f32⟩
  | .hbm, ⟨21, _⟩ => ⟨S256x32, .f32⟩
  | .hbm, ⟨22, _⟩ => ⟨S256x32, .f32⟩
  | .hbm, ⟨23, _⟩ => ⟨S256x32, .f32⟩
  | .hbm, ⟨24, _⟩ => ⟨S1x32, .f32⟩
  | .hbm, ⟨25, _⟩ => ⟨S256x32, .f32⟩
  | .hbm, ⟨26, _⟩ => ⟨S256x32, .f32⟩
  | .hbm, ⟨27, _⟩ => ⟨S256x32, .f32⟩
  | .hbm, ⟨28, _⟩ => ⟨S_, .f32⟩
  | .hbm, ⟨29, _⟩ => ⟨S32, .f32⟩
  | .hbm, ⟨30, _⟩ => ⟨S1x32, .f32⟩
  | .hbm, ⟨31, _⟩ => ⟨S256x32, .f32⟩
  | .hbm, ⟨32, _⟩ => ⟨S256x32, .f32⟩
  | .hbm, ⟨33, _⟩ => ⟨S32x256, .f32⟩
  | .hbm, ⟨34, _⟩ => ⟨S32x32, .f32⟩
  | .hbm, ⟨35, _⟩ => ⟨S32x256, .f32⟩
  | .hbm, ⟨36, _⟩ => ⟨S32x256, .f32⟩
  | .hbm, ⟨37, _⟩ => ⟨S32x256, .f32⟩
  | .hbm, ⟨38, _⟩ => ⟨S_, .f32⟩
  | .hbm, ⟨39, _⟩ => ⟨S32x256, .f32⟩
  | .hbm, ⟨40, _⟩ => ⟨S32x256, .f32⟩
  | .hbm, ⟨41, _⟩ => ⟨S262144x256, .f32⟩
  | .hbm, ⟨42, _⟩ => ⟨S1x256x512x512, .f32⟩
  | .local _ .vmem, ⟨0, _⟩ => ⟨S2048x256, .f32⟩
  | .local _ .vmem, ⟨1, _⟩ => ⟨S2048x256, .f32⟩
  | .local _ .vmem, ⟨2, _⟩ => ⟨S256x32, .f32⟩
  | .local _ .vmem, ⟨3, _⟩ => ⟨S256x32, .f32⟩
  | .local _ .vmem, ⟨4, _⟩ => ⟨S1x32, .f32⟩
  | .local _ .vmem, ⟨5, _⟩ => ⟨S2048x32, .bf16⟩
  | .local _ .vmem, ⟨6, _⟩ => ⟨S2048x32, .bf16⟩
  | .local _ .vmem, ⟨7, _⟩ => ⟨S1x32, .f32⟩
  | .local _ .vmem, ⟨8, _⟩ => ⟨S256x32, .f32⟩
  | .local _ .vmem, ⟨9, _⟩ => ⟨S4096x32, .bf16⟩
  | .local _ .vmem, ⟨10, _⟩ => ⟨S4096x32, .bf16⟩
  | .local _ .vmem, ⟨11, _⟩ => ⟨S32x256, .f32⟩
  | .local _ .vmem, ⟨12, _⟩ => ⟨S4096x256, .f32⟩
  | .local _ .vmem, ⟨13, _⟩ => ⟨S4096x256, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x256x512x512_S262144x256 : S1x256x512x512.ShapeCasts S262144x256
  bcast_S_S256x32 : S_.BroadcastsInDim S256x32 (![] : Fin 0 → Fin S256x32.rank)
  reducesTo_S256x32_S32_d0 : S256x32.ReducesTo [0] S32
  h_S_ : 0 < S_.numel
  shapeCasts_S32_S1x32 : S32.ShapeCasts S1x32
  inb_S1x32_S1x32_0_0 : ∀ a, (![0, 0] : Fin 2 → Nat) a + S1x32.size a ≤ S1x32.size a
  h_S1x32 : 0 < S1x32.numel
  inb_S256x32_S256x32_0_0 : ∀ a, (![0, 0] : Fin 2 → Nat) a + S256x32.size a ≤ S256x32.size a
  h_S256x32 : 0 < S256x32.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  shapeCasts_S256x32_S256x32 : S256x32.ShapeCasts S256x32
  shapeCasts_S1x32_S1x32 : S1x32.ShapeCasts S1x32
  broadcasts_S1x32_S2048x32 : S1x32.Broadcasts S2048x32
  reduces_S2048x32_S2048 : S2048x32.Reduces [1] S2048
  shapeCasts_S2048_S2048x1 : S2048.ShapeCasts S2048x1
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  packedbf16_S2048x32_S2048x32_0_0 : (Rect.unit (s := S2048x32) ![0, 0] S2048x32.size inb_S2048x32_S2048x32_0_0).PackedRows (EltTy.packing .bf16)
  reduces_S2048x32_S32 : S2048x32.Reduces [0] S32
  shapeCasts_S1x32_S32 : S1x32.ShapeCasts S32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  transposes_S256x32_S32x256_1_0 : S256x32.Transposes [1, 0] S32x256
  bcast_S_S32x256 : S_.BroadcastsInDim S32x256 (![] : Fin 0 → Fin S32x256.rank)
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S4096x256_S4096x256_0_0 : ∀ a, (![0, 0] : Fin 2 → Nat) a + S4096x256.size a ≤ S4096x256.size a
  h_S4096x256 : 0 < S4096x256.numel
  shapeCasts_S262144x256_S1x256x512x512 : S262144x256.ShapeCasts S1x256x512x512
  dot_S2048x256_S256x32_S2048x32_1_0_0_1_n_n_wf : DotDims.WF S2048x256 S256x32 S2048x32 [1] [0] [0] [1] [] []
  dot_S2048x256_S2048x32_S256x32_0_0_1_1_n_n_wf : DotDims.WF S2048x256 S2048x32 S256x32 [0] [0] [1] [1] [] []
  dot_S32x256_S256x32_S32x32_1_0_0_1_n_n_wf : DotDims.WF S32x256 S256x32 S32x32 [1] [0] [0] [1] [] []
  dot_S32x256_S256x256_S32x256_1_0_0_1_n_n_wf : DotDims.WF S32x256 S256x256 S32x256 [1] [0] [0] [1] [] []
  dot_S32x32_S32x256_S32x256_1_0_0_1_n_n_wf : DotDims.WF S32x32 S32x256 S32x256 [1] [0] [0] [1] [] []
  dot_S4096x32_S32x256_S4096x256_1_0_0_1_n_n_wf : DotDims.WF S4096x32 S32x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S262144x32.size a
  hwx0_4 : ∀ i : grid0.Coords, EltTy.bits .bf16 = 32 ∨ (Rect.block (s := S262144x32) S2048x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S262144x32.size a
  hwx1_0 : ∀ i : grid1.Coords, EltTy.bits .bf16 = 32 ∨ (Rect.block (s := S262144x32) S4096x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S262144x256.size a
  hwx1_2 : ∀ i : grid1.Coords, EltTy.bits .f32 = 32 ∨ (Rect.block (s := S262144x256) S4096x256.size (cc1_transform_2 i) (hinb1_2 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x256_S2048x32_S256x32_0_0_1_1_n_n : DotDims S2048x256 S2048x32 S256x32 where
  lhsContracting := [0]
  rhsContracting := [0]
  lhsNonContracting := [1]
  rhsNonContracting := [1]
  lhsBatch := []
  rhsBatch := []
  wf := dot_S2048x256_S2048x32_S256x32_0_0_1_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S2048x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x32.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S256x32.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9_0) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x256x512x512 : Shape := ⟨4, ![1, 256, 512, 512]⟩
abbrev S256x32 : Shape := ⟨2, ![256, 32]⟩
abbrev S256x256 : Shape := ⟨2, ![256, 256]⟩
abbrev S262144x256 : Shape := ⟨2, ![262144, 256]⟩
abbrev S_ : Shape := ⟨0, ![]⟩
abbrev S262144x32 : Shape := ⟨2, ![262144, 32]⟩
abbrev S32 : Shape := ⟨1, ![32]⟩
abbrev S1x32 : Shape := ⟨2, ![1, 32]⟩
abbrev S262144 : Shape := ⟨1, ![262144]⟩
abbrev S262144x1 : Shape := ⟨2, ![262144, 1]⟩
abbrev S256x262144 : Shape := ⟨2, ![256, 262144]⟩
abbrev S32x256 : Shape := ⟨2, ![32, 256]⟩
abbrev S32x32 : Shape := ⟨2, ![32, 32]⟩

abbrev nBuf : Space → Nat
  | .hbm => 66
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S262144x256, .f32⟩
  | .hbm, ⟨5, _⟩ => ⟨S_, .f32⟩
  | .hbm, ⟨6, _⟩ => ⟨S256x32, .f32⟩
  | .hbm, ⟨7, _⟩ => ⟨S256x32, .f32⟩
  | .hbm, ⟨8, _⟩ => ⟨S256x32, .f32⟩
  | .hbm, ⟨9, _⟩ => ⟨S262144x256, .f32⟩
  | .hbm, ⟨10, _⟩ => ⟨S262144x32, .f32⟩
  | .hbm, ⟨11, _⟩ => ⟨S256x32, .f32⟩
  | .hbm, ⟨12, _⟩ => ⟨S262144x32, .f32⟩
  | .hbm, ⟨13, _⟩ => ⟨S_, .f32⟩
  | .hbm, ⟨14, _⟩ => ⟨S262144x32, .f32⟩
  | .hbm, ⟨15, _⟩ => ⟨S262144x32, .f32⟩
  | .hbm, ⟨16, _⟩ => ⟨S262144x32, .f32⟩
  | .hbm, ⟨17, _⟩ => ⟨S256x32, .f32⟩
  | .hbm, ⟨18, _⟩ => ⟨S256x32, .f32⟩
  | .hbm, ⟨19, _⟩ => ⟨S_, .f32⟩
  | .hbm, ⟨20, _⟩ => ⟨S32, .f32⟩
  | .hbm, ⟨21, _⟩ => ⟨S1x32, .f32⟩
  | .hbm, ⟨22, _⟩ => ⟨S262144x32, .f32⟩
  | .hbm, ⟨23, _⟩ => ⟨S262144x32, .f32⟩
  | .hbm, ⟨24, _⟩ => ⟨S_, .f32⟩
  | .hbm, ⟨25, _⟩ => ⟨S262144, .f32⟩
  | .hbm, ⟨26, _⟩ => ⟨S262144x1, .f32⟩
  | .hbm, ⟨27, _⟩ => ⟨S262144x32, .f32⟩
  | .hbm, ⟨28, _⟩ => ⟨S262144x32, .f32⟩
  | .hbm, ⟨29, _⟩ => ⟨S_, .f32⟩
  | .hbm, ⟨30, _⟩ => ⟨S262144x32, .f32⟩
  | .hbm, ⟨31, _⟩ => ⟨S262144x32, .f32⟩
  | .hbm, ⟨32, _⟩ => ⟨S262144x32, .f32⟩
  | .hbm, ⟨33, _⟩ => ⟨S_, .f32⟩
  | .hbm, ⟨34, _⟩ => ⟨S262144, .f32⟩
  | .hbm, ⟨35, _⟩ => ⟨S262144x1, .f32⟩
  | .hbm, ⟨36, _⟩ => ⟨S262144x32, .f32⟩
  | .hbm, ⟨37, _⟩ => ⟨S262144x32, .f32⟩
  | .hbm, ⟨38, _⟩ => ⟨S_, .f32⟩
  | .hbm, ⟨39, _⟩ => ⟨S32, .f32⟩
  | .hbm, ⟨40, _⟩ => ⟨S256x262144, .f32⟩
  | .hbm, ⟨41, _⟩ => ⟨S256x32, .f32⟩
  | .hbm, ⟨42, _⟩ => ⟨S1x32, .f32⟩
  | .hbm, ⟨43, _⟩ => ⟨S256x32, .f32⟩
  | .hbm, ⟨44, _⟩ => ⟨S256x32, .f32⟩
  | .hbm, ⟨45, _⟩ => ⟨S256x32, .f32⟩
  | .hbm, ⟨46, _⟩ => ⟨S256x32, .f32⟩
  | .hbm, ⟨47, _⟩ => ⟨S1x32, .f32⟩
  | .hbm, ⟨48, _⟩ => ⟨S256x32, .f32⟩
  | .hbm, ⟨49, _⟩ => ⟨S256x32, .f32⟩
  | .hbm, ⟨50, _⟩ => ⟨S256x32, .f32⟩
  | .hbm, ⟨51, _⟩ => ⟨S_, .f32⟩
  | .hbm, ⟨52, _⟩ => ⟨S32, .f32⟩
  | .hbm, ⟨53, _⟩ => ⟨S1x32, .f32⟩
  | .hbm, ⟨54, _⟩ => ⟨S256x32, .f32⟩
  | .hbm, ⟨55, _⟩ => ⟨S256x32, .f32⟩
  | .hbm, ⟨56, _⟩ => ⟨S32x256, .f32⟩
  | .hbm, ⟨57, _⟩ => ⟨S32x32, .f32⟩
  | .hbm, ⟨58, _⟩ => ⟨S32x256, .f32⟩
  | .hbm, ⟨59, _⟩ => ⟨S32x256, .f32⟩
  | .hbm, ⟨60, _⟩ => ⟨S32x256, .f32⟩
  | .hbm, ⟨61, _⟩ => ⟨S_, .f32⟩
  | .hbm, ⟨62, _⟩ => ⟨S32x256, .f32⟩
  | .hbm, ⟨63, _⟩ => ⟨S32x256, .f32⟩
  | .hbm, ⟨64, _⟩ => ⟨S262144x256, .f32⟩
  | .hbm, ⟨65, _⟩ => ⟨S1x256x512x512, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_cst : Ref sig .tc := ⟨.hbm, 61, rfl⟩
abbrev main_call0_v0 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  shapeCasts_S1x256x512x512_S262144x256 : S1x256x512x512.ShapeCasts S262144x256
  bcast_S_S256x32 : S_.BroadcastsInDim S256x32 (![] : Fin 0 → Fin S256x32.rank)
  bcast_S_S262144x32 : S_.BroadcastsInDim S262144x32 (![] : Fin 0 → Fin S262144x32.rank)
  reducesTo_S256x32_S32_d0 : S256x32.ReducesTo [0] S32
  h_S_ : 0 < S_.numel
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  reducesTo_S262144x32_S262144_d1 : S262144x32.ReducesTo [1] S262144
  bcast_S262144_S262144x1_0 : S262144.BroadcastsInDim S262144x1 (![0] : Fin 1 → Fin S262144x1.rank)
  bcast_S262144x1_S262144x32_0_1 : S262144x1.BroadcastsInDim S262144x32 (![0, 1] : Fin 2 → Fin S262144x32.rank)
  reducesTo_S262144x32_S32_d0 : S262144x32.ReducesTo [0] S32
  transposes_S262144x256_S256x262144_1_0 : S262144x256.Transposes [1, 0] S256x262144
  bcast_S1x32_S256x32_0_1 : S1x32.BroadcastsInDim S256x32 (![0, 1] : Fin 2 → Fin S256x32.rank)
  transposes_S256x32_S32x256_1_0 : S256x32.Transposes [1, 0] S32x256
  bcast_S_S32x256 : S_.BroadcastsInDim S32x256 (![] : Fin 0 → Fin S32x256.rank)
  shapeCasts_S262144x256_S1x256x512x512 : S262144x256.ShapeCasts S1x256x512x512
  dot_S262144x256_S256x32_S262144x32_1_0_0_1_n_n_wf : DotDims.WF S262144x256 S256x32 S262144x32 [1] [0] [0] [1] [] []
  dot_S256x262144_S262144x32_S256x32_1_0_0_1_n_n_wf : DotDims.WF S256x262144 S262144x32 S256x32 [1] [0] [0] [1] [] []
  dot_S32x256_S256x32_S32x32_1_0_0_1_n_n_wf : DotDims.WF S32x256 S256x32 S32x32 [1] [0] [0] [1] [] []
  dot_S32x256_S256x256_S32x256_1_0_0_1_n_n_wf : DotDims.WF S32x256 S256x256 S32x256 [1] [0] [0] [1] [] []
  dot_S32x32_S32x256_S32x256_1_0_0_1_n_n_wf : DotDims.WF S32x32 S32x256 S32x256 [1] [0] [0] [1] [] []
  dot_S262144x32_S32x256_S262144x256_1_0_0_1_n_n_wf : DotDims.WF S262144x32 S32x256 S262144x256 [1] [0] [0] [1] [] []

variable [Facts₀]

def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf
def dot_S256x262144_S262144x32_S256x32_1_0_0_1_n_n : DotDims S256x262144 S262144x32 S256x32 where
  lhsContracting := [1]
  rhsContracting := [0]
  lhsNonContracting := [0]
  rhsNonContracting := [1]
  lhsBatch := []
  rhsBatch := []
  wf := dot_S256x262144_S262144x32_S256x32_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S262144x32_S32x256_S262144x256_1_0_0_1_n_n : DotDims S262144x32 S32x256 S262144x256 where
  lhsContracting := [1]
  rhsContracting := [0]
  lhsNonContracting := [0]
  rhsNonContracting := [1]
  lhsBatch := []
  rhsBatch := []
  wf := dot_S262144x32_S32x256_S262144x256_1_0_0_1_n_n_wf

class Facts : Prop extends Facts₀ where

variable [Facts]
-- ==== Proof.Fold.lean ====
/-
  The host stretches of the idealized kernel's @main, read as values. Before the first call: the data reshaped to rows,
  the inverse variances, their squares, the means scaled by them, and the per-component constants. Between the calls: the
  assignments untouched, and the pooled matrix as ONE function `pool` of the two totals and the parameters — the same
  operations the reference applies to its own totals, so the chain is carried whole and never opened. After the second
  call: one reshape.
-/
import proofs.«172604_j41832981463347_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable {F : FTy → Type} [FloatOps F]

/-- The inverse variances. -/
def invVar (var : Vec F S256x32 .f32) : Vec F S256x32 .f32 :=
  Host.divf (F := F) (broadcastInDim S256x32 ![] bcast_S_S256x32 (constant (F := F) S_ .f32 0x3F800000#32)) var

/-- The pooled matrix before its clamp at zero, from the column totals `s`, the weighted feature totals `z`, the means
    `w`, the inverse variances `iv` and the output weights `wt`: centre and scale the totals, divide each column by its
    sum of squares, and multiply the Gram matrix of the result by its product with the output weights. -/
def poolPre (s : Vec F S32 .f32) (z w iv : Vec F S256x32 .f32) (wt : Vec F S256x256 .f32) : Vec F S32x256 .f32 :=
  let sb : Vec F S256x32 .f32 := broadcastInDim S256x32 ![0, 1] bcast_S1x32_S256x32_0_1 (broadcastInDim S1x32 ![1] bcast_S32_S1x32_1 s)
  let z1 : Vec F S256x32 .f32 := Host.divf (F := F) (mulf (subf z (mulf w sb)) iv) sb
  let n : Vec F S32 .f32 := Host.reduceAdd (F := F) (mulf z1 z1) (constant (F := F) S_ .f32 0x00000000#32) reducesTo_S256x32_S32_d0 h_S_
  let nb : Vec F S256x32 .f32 := broadcastInDim S256x32 ![0, 1] bcast_S1x32_S256x32_0_1 (broadcastInDim S1x32 ![1] bcast_S32_S1x32_1 n)
  let z2 : Vec F S256x32 .f32 := Host.divf (F := F) z1 nb
  let zt : Vec F S32x256 .f32 := transpose S32x256 [1, 0] z2 transposes_S256x32_S32x256_1_0
  let adj : Vec F S32x32 .f32 := Host.dotGeneral (F := F) dot_S32x256_S256x32_S32x32_1_0_0_1_n_n none zt z2
  let zw : Vec F S32x256 .f32 := Host.dotGeneral (F := F) dot_S32x256_S256x256_S32x256_1_0_0_1_n_n none zt wt
  Host.dotGeneral (F := F) dot_S32x32_S32x256_S32x256_1_0_0_1_n_n none adj zw

/-- The pooled matrix: `poolPre` clamped at zero. The host operations between the two calls, in order. -/
def pool (s : Vec F S32 .f32) (z w iv : Vec F S256x32 .f32) (wt : Vec F S256x256 .f32) : Vec F S32x256 .f32 :=
  maximumf (poolPre s z w iv wt) (broadcastInDim S32x256 ![] bcast_S_S32x256 (constant (F := F) S_ .f32 0x00000000#32))

variable (m : (ℓ : Loc nD τ sig) → Buf (Elt F) ℓ) (ρ : Dev nD → PrngReg)

/-- The four argument arrays as launched. -/
abbrev argX (c : Dev nD) : Vec F S1x256x512x512 .f32 := m ((c.tc : Thread nD τ).loc main_arg0)
abbrev argW (c : Dev nD) : Vec F S256x32 .f32 := m ((c.tc : Thread nD τ).loc main_arg1)
abbrev argVar (c : Dev nD) : Vec F S256x32 .f32 := m ((c.tc : Thread nD τ).loc main_arg2)
abbrev argWt (c : Dev nD) : Vec F S256x256 .f32 := m ((c.tc : Thread nD τ).loc main_arg3)

/-! ## Before the first call -/

theorem entry0_data (c : Dev nD) :
    (V1 m ρ c main_v0 : Vec F S262144x256 .f32) = shapeCast S262144x256 (argX m c) shapeCasts_S1x256x512x512_S262144x256 := by
  show StableHlo.after hostOps0 (W0 m ρ c) (Proc.devRef .tc main_v0) = _
  after_results
  rfl

theorem entry0_invVar2 (c : Dev nD) :
    (V1 m ρ c main_v3 : Vec F S256x32 .f32) = mulf (invVar (argVar m c)) (invVar (argVar m c)) := by
  show StableHlo.after hostOps0 (W0 m ρ c) (Proc.devRef .tc main_v3) = _
  after_results
  rfl

theorem entry0_mean (c : Dev nD) :
    (V1 m ρ c main_v4 : Vec F S256x32 .f32) = mulf (argW m c) (mulf (invVar (argVar m c)) (invVar (argVar m c))) := by
  show StableHlo.after hostOps0 (W0 m ρ c) (Proc.devRef .tc main_v4) = _
  after_results
  rfl

theorem entry0_bias (c : Dev nD) :
    (V1 m ρ c main_v8 : Vec F S1x32 .f32)
      = shapeCast S1x32 (Host.reduceAdd (F := F) (mulf (mulf (argW m c) (argW m c)) (mulf (invVar (argVar m c)) (invVar (argVar m c))))
          (constant (F := F) S_ .f32 0x00000000#32) reducesTo_S256x32_S32_d0 h_S_) shapeCasts_S32_S1x32 := by
  show StableHlo.after hostOps0 (W0 m ρ c) (Proc.devRef .tc main_v8) = _
  after_results
  rfl

/-! ## Between the calls -/

theorem entry1_assign (c : Dev nD) : V4 m ρ c main_v9_0 = (dat0 (V1 m ρ) c).arrAt 4 cfg0.N :=
  calc W4 m ρ c (Proc.devRef .tc main_v9_0)
    _ = W3 m ρ c (Proc.devRef .tc main_v9_0) := StableHlo.after_of_forall_not_mem (b := Proc.devRef .tc main_v9_0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v9_0) := StableHlo.after_of_forall_not_mem (b := Proc.devRef .tc main_v9_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 4 cfg0.N := W2_arr m ρ c 4

/-- The three operations of the clamp, from any contents. -/
theorem relu_stretch (Wv : Valuation τ sig (Elt F)) :
    (StableHlo.after hostOps1_1 Wv (Proc.devRef .tc main_v29) : Vec F S32x256 .f32)
      = maximumf (Wv (Proc.devRef .tc main_v28) : Vec F S32x256 .f32)
          (broadcastInDim S32x256 ![] bcast_S_S32x256 (constant (F := F) S_ .f32 0x00000000#32)) := by
  after_results_simp
  simp only [StableHlo.TRef.ofBuf, StableHlo.TRef.toBuf, cast_eq]

set_option maxHeartbeats 2000000 in
/-- The twenty operations between the first call and the clamp, from any contents. -/
theorem pool_stretch (Wv : Valuation τ sig (Elt F)) :
    (StableHlo.after hostOps1 Wv (Proc.devRef .tc main_v28) : Vec F S32x256 .f32)
      = poolPre (shapeCast S32 (Wv (Proc.devRef .tc main_v9_1) : Vec F S1x32 .f32) shapeCasts_S1x32_S32)
          (Wv (Proc.devRef .tc main_v9_2)) (Wv (Proc.devRef .tc main_arg1)) (Wv (Proc.devRef .tc main_v2))
          (Wv (Proc.devRef .tc main_arg3)) := by
  after_results_simp
  rfl

/-- What the first stretch leaves in the buffers the second stretch reads besides the call's results. -/
theorem entry0_argW (c : Dev nD) : (W1 m ρ c (Proc.devRef .tc main_arg1) : Vec F S256x32 .f32) = argW m c := by
  show StableHlo.after hostOps0 (W0 m ρ c) (Proc.devRef .tc main_arg1) = _
  after_results

theorem entry0_argWt (c : Dev nD) : (W1 m ρ c (Proc.devRef .tc main_arg3) : Vec F S256x256 .f32) = argWt m c := by
  show StableHlo.after hostOps0 (W0 m ρ c) (Proc.devRef .tc main_arg3) = _
  after_results

theorem entry0_invVar (c : Dev nD) : (W1 m ρ c (Proc.devRef .tc main_v2) : Vec F S256x32 .f32) = invVar (argVar m c) := by
  show StableHlo.after hostOps0 (W0 m ρ c) (Proc.devRef .tc main_v2) = _
  after_results
  rfl

theorem entry1_pool (c : Dev nD) :
    (V4 m ρ c main_v29 : Vec F S32x256 .f32)
      = pool (shapeCast S32 ((dat0 (V1 m ρ) c).arrAt 5 cfg0.N : Vec F S1x32 .f32) shapeCasts_S1x32_S32)
          ((dat0 (V1 m ρ) c).arrAt 6 cfg0.N) (argW m c) (invVar (argVar m c)) (argWt m c) := by
  have h5 : W2 m ρ c (Proc.devRef .tc main_v9_1) = (dat0 (V1 m ρ) c).arrAt 5 cfg0.N := W2_arr m ρ c 5
  have h6 : W2 m ρ c (Proc.devRef .tc main_v9_2) = (dat0 (V1 m ρ) c).arrAt 6 cfg0.N := W2_arr m ρ c 6
  have hw : W2 m ρ c (Proc.devRef .tc main_arg1) = argW m c := (W2_of_ne m ρ c main_arg1 (by decide)).trans (entry0_argW m ρ c)
  have hwt : W2 m ρ c (Proc.devRef .tc main_arg3) = argWt m c := (W2_of_ne m ρ c main_arg3 (by decide)).trans (entry0_argWt m ρ c)
  have hiv : W2 m ρ c (Proc.devRef .tc main_v2) = invVar (argVar m c) := (W2_of_ne m ρ c main_v2 (by decide)).trans (entry0_invVar m ρ c)
  show StableHlo.after hostOps1_1 (StableHlo.after hostOps1 (W2 m ρ c)) (Proc.devRef .tc main_v29) = _
  rw [relu_stretch, pool_stretch, h5, h6, hw, hwt, hiv]
  rfl

/-! ## After the second call -/

theorem exit_result (c : Dev nD) :
    (W6 m ρ c (Proc.devRef .tc main_v31) : Vec F S1x256x512x512 .f32)
      = shapeCast S1x256x512x512 ((dat1 (V4 m ρ) c).arrAt 2 cfg1.N : Vec F S262144x256 .f32) shapeCasts_S262144x256_S1x256x512x512 := by
  show StableHlo.after hostOps2 (W5 m ρ c) (Proc.devRef .tc main_v31) = _
  after_results
  rw [W5_arr m ρ c 2]
  rfl

end Cert.KernelIdeal.Val

end
-- ==== Proof.Spec.lean ====
/-
  The mathematics both programs compute, free of either program.

  For a data row `x` (256 features) and 32 components with inverse squared variances `a`, means scaled by them `b`, and
  per-component constants `bias`, the score of component `v` is the squared scaled distance expanded into two products,
  `∑ d, x d ^ 2 · a d v − 2 · ∑ d, x d · b d v + bias v`. The row's assignment is the softmin of half the scores: subtract the
  row's least score, exponentiate `−1/2` times the rest, and divide by the sum over the components (`assign`).
  Everything is an extended real, every operation exact; the four literals are kept as their words.

  The second half regroups a sum over all 262144 rows as the sum, over 128 consecutive blocks of 2048 rows, of each
  block's sum; with commutativity and associativity of extended-real addition that is all the kernel's blockwise
  accumulation needs.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic

/-- The literal `2.0`. -/
abbrev two : EReal := Ideal.ofBits .f32 0x40000000#32
/-- The literal `-0.5`. -/
abbrev negHalf : EReal := Ideal.ofBits .f32 0xBF000000#32
/-- The literal `+inf`, the value a minimum over the components starts from. -/
abbrev posInf : EReal := Ideal.ofBits .f32 0x7F800000#32

/-- Component `v`'s score for the row `x`. -/
def score (x : Fin 256 → EReal) (a b : Fin 256 → Fin 32 → EReal) (bias : Fin 32 → EReal) (v : Fin 32) : EReal :=
  ((∑ d : Fin 256, (x d * x d) * a d v) - two * (∑ d : Fin 256, x d * b d v)) + bias v

/-- The least score of the row. -/
def least (x : Fin 256 → EReal) (a b : Fin 256 → Fin 32 → EReal) (bias : Fin 32 → EReal) : EReal :=
  (Finset.univ : Finset (Fin 32)).fold min posInf (score x a b bias)

/-- The unnormalised weight of component `v`. -/
def weight (x : Fin 256 → EReal) (a b : Fin 256 → Fin 32 → EReal) (bias : Fin 32 → EReal) (v : Fin 32) : EReal :=
  Ideal.exp (negHalf * (score x a b bias v - least x a b bias))

/-- The row's assignment to component `v`: its weight over the sum of the row's weights. -/
def assign (x : Fin 256 → EReal) (a b : Fin 256 → Fin 32 → EReal) (bias : Fin 32 → EReal) (v : Fin 32) : EReal :=
  Ideal.div (weight x a b bias v) (∑ u : Fin 32, weight x a b bias u)

/-- Every row's assignment, as one array: row `p` of `X` against the components. -/
def assignAll (X : (⟨2, ![262144, 256]⟩ : Shape).Idx → EReal) (A B : (⟨2, ![256, 32]⟩ : Shape).Idx → EReal)
    (bias : (⟨2, ![1, 32]⟩ : Shape).Idx → EReal) : (⟨2, ![262144, 32]⟩ : Shape).Idx → EReal :=
  fun i => assign (fun d => X (ValueIdx.ix2 (i 0) d)) (fun d u => A (ValueIdx.ix2 d u)) (fun d u => B (ValueIdx.ix2 d u))
    (fun u => bias (ValueIdx.ix2 (0 : Fin 1) u)) (i 1)

/-! ## Rows in blocks -/

/-- Row `r` of block `t`, among all rows. -/
def rowOf (t : Fin 128) (r : Fin 2048) : Fin 262144 :=
  ⟨t.val * 2048 + r.val, by have := t.isLt; have := r.isLt; omega⟩

theorem rowOf_val (t : Fin 128) (r : Fin 2048) : (rowOf t r).val = t.val * 2048 + r.val := rfl

/-- A sum over all rows is the sum over the blocks of each block's sum. -/
theorem sum_rows (f : Fin 262144 → EReal) : ∑ p : Fin 262144, f p = ∑ t : Fin 128, ∑ r : Fin 2048, f (rowOf t r) := by
  rw [← Fintype.sum_prod_type']
  refine (Fintype.sum_equiv (finProdFinEquiv (m := 128) (n := 2048)) _ _ (fun x => ?_)).symm
  refine congrArg f (Fin.ext ?_)
  show x.1.val * 2048 + x.2.val = (finProdFinEquiv (m := 128) (n := 2048) x).val
  rw [finProdFinEquiv_apply_val]; omega

/-- The sum over the first `n + 1` blocks. -/
def upTo (g : Fin 128 → EReal) (n : Nat) : EReal := ∑ t ∈ Finset.univ.filter (fun t : Fin 128 => t.val ≤ n), g t

theorem upTo_zero (g : Fin 128 → EReal) : upTo g 0 = g 0 := by
  unfold upTo
  have : Finset.univ.filter (fun t : Fin 128 => t.val ≤ 0) = {(0 : Fin 128)} := by
    ext t
    simp only [Finset.mem_filter, Finset.mem_univ, true_and, Finset.mem_singleton]
    constructor
    · intro h; exact Fin.ext (by show t.val = 0; omega)
    · intro h; subst h; exact Nat.le_refl _
  rw [this, Finset.sum_singleton]

theorem upTo_succ (g : Fin 128 → EReal) (n : Nat) (h : n + 1 < 128) : upTo g (n + 1) = upTo g n + g ⟨n + 1, h⟩ := by
  unfold upTo
  have hset : Finset.univ.filter (fun t : Fin 128 => t.val ≤ n + 1)
      = insert (⟨n + 1, h⟩ : Fin 128) (Finset.univ.filter (fun t : Fin 128 => t.val ≤ n)) := by
    ext t
    simp only [Finset.mem_filter, Finset.mem_univ, true_and, Finset.mem_insert]
    constructor
    · intro ht
      by_cases e : t.val = n + 1
      · exact Or.inl (Fin.ext e)
      · exact Or.inr (by omega)
    · rintro (e | e)
      · subst e; exact Nat.le_refl _
      · omega
  have hnot : (⟨n + 1, h⟩ : Fin 128) ∉ Finset.univ.filter (fun t : Fin 128 => t.val ≤ n) := by
    simp only [Finset.mem_filter, Finset.mem_univ, true_and]; omega
  rw [hset, Finset.sum_insert hnot, add_comm]

theorem upTo_last (g : Fin 128 → EReal) : upTo g 127 = ∑ t : Fin 128, g t := by
  unfold upTo
  rw [Finset.filter_true_of_mem (fun t _ => by have := t.isLt; omega)]

end Cert.Spec

end
-- ==== Proof.Blocks0.lean ====
/-
  The first kernel's windows, read through their index maps: at grid point `t` the data window holds rows
  `2048·t … 2048·t + 2047` of the data array, and the three parameter windows hold their whole arrays at every point.
-/
import proofs.«172604_j41832981463347_1_alg».proof.Proof.Gen.KernelIdeal.Frame
import proofs.«172604_j41832981463347_1_alg».proof.Proof.Spec
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.Spec

variable (V : (c : Dev nD) → (b : Ref sig .tc) → Buf (Elt Ideal) ((c : Thread nD τ).loc b))

/-- The arrays the first kernel reads, by what they are. -/
abbrev dataArr (c : Dev nD) : S262144x256.Idx → EReal := V c main_v0
abbrev invVarArr (c : Dev nD) : S256x32.Idx → EReal := V c main_v3
abbrev meanArr (c : Dev nD) : S256x32.Idx → EReal := V c main_v4
abbrev biasArr (c : Dev nD) : S1x32.Idx → EReal := V c main_v8

/-- A grid point of the first kernel as a block number. -/
abbrev blockOf (t : Fin cfg0.N) : Fin 128 := Fin.cast N_0 t

/-- The index maps of the four input windows, decided once over the grid: the data window's block row is the point's number,
    every other block index is zero. -/
private theorem inputIndexFacts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `r`, feature `d` of the data block at point `t` is row `2048·t + r` of the data array. -/
theorem data_block (c : Dev nD) (t : Fin cfg0.N) (r : Fin 2048) (d : Fin 256) :
    (iblk0 V c 0 t : Vec Ideal S2048x256 .f32) (ix2 r d) = dataArr V c (ix2 (rowOf (blockOf t) r) d) := by
  obtain ⟨e0, e1, -⟩ := inputIndexFacts t
  unfold iblk0
  rw [View.read_apply]
  show V c main_v0 _ = V c main_v0 _
  congr 1
  funext a
  apply Fin.ext
  match a with
  | ⟨0, _⟩ =>
    show win0_0.index t (0 : Fin 2) * 2048 + 1 * r.val = t.val * 2048 + r.val
    rw [e0]; omega
  | ⟨1, _⟩ =>
    show win0_0.index t (1 : Fin 2) * 256 + 1 * d.val = d.val
    rw [e1]; omega

theorem invVar_block (c : Dev nD) (t : Fin cfg0.N) : (iblk0 V c 1 t : Vec Ideal S256x32 .f32) = invVarArr V c := by
  obtain ⟨-, -, e0, e1, -⟩ := inputIndexFacts t
  funext j
  unfold iblk0
  rw [View.read_apply]
  show V c main_v3 _ = V c main_v3 _
  congr 1
  funext a
  apply Fin.ext
  match a with
  | ⟨0, _⟩ =>
    show win0_1.index t (0 : Fin 2) * 256 + 1 * (j 0).val = (j 0).val
    rw [e0]; omega
  | ⟨1, _⟩ =>
    show win0_1.index t (1 : Fin 2) * 32 + 1 * (j 1).val = (j 1).val
    rw [e1]; omega

theorem mean_block (c : Dev nD) (t : Fin cfg0.N) : (iblk0 V c 2 t : Vec Ideal S256x32 .f32) = meanArr V c := by
  obtain ⟨-, -, -, -, e0, e1, -⟩ := inputIndexFacts t
  funext j
  unfold iblk0
  rw [View.read_apply]
  show V c main_v4 _ = V c main_v4 _
  congr 1
  funext a
  apply Fin.ext
  match a with
  | ⟨0, _⟩ =>
    show win0_2.index t (0 : Fin 2) * 256 + 1 * (j 0).val = (j 0).val
    rw [e0]; omega
  | ⟨1, _⟩ =>
    show win0_2.index t (1 : Fin 2) * 32 + 1 * (j 1).val = (j 1).val
    rw [e1]; omega

theorem bias_block (c : Dev nD) (t : Fin cfg0.N) : (iblk0 V c 3 t : Vec Ideal S1x32 .f32) = biasArr V c := by
  obtain ⟨-, -, -, -, -, -, e0, e1⟩ := inputIndexFacts t
  funext j
  unfold iblk0
  rw [View.read_apply]
  show V c main_v8 _ = V c main_v8 _
  congr 1
  funext a
  apply Fin.ext
  match a with
  | ⟨0, _⟩ =>
    show win0_3.index t (0 : Fin 2) * 1 + 1 * (j 0).val = (j 0).val
    rw [e0]; omega
  | ⟨1, _⟩ =>
    show win0_3.index t (1 : Fin 2) * 32 + 1 * (j 1).val = (j 1).val
    rw [e1]; omega

end Cert.KernelIdeal.Val

end
-- ==== Proof.Pieces.lean ====
/-
  What the first kernel's body leaves in its three output buffers at one grid point, as the body's own arithmetic.

  At every point the body stores the block of assignments (its one store of the first output). At the first point it
  first clears the two running totals and then adds the block's contribution to the cleared values; at every later
  point it adds the contribution to what the point before left.
-/
import proofs.«172604_j41832981463347_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a1 : Memref sig .tc .vmem S2048x256 .f32) (h1 : a1.IsWhole) (a2 : Memref sig .tc .vmem S256x32 .f32) (h2 : a2.IsWhole)
  (a3 : Memref sig .tc .vmem S256x32 .f32) (h3 : a3.IsWhole) (a4 : Memref sig .tc .vmem S1x32 .f32) (h4 : a4.IsWhole)
  (a5 : Memref sig .tc .vmem S2048x32 .bf16) (h5 : a5.IsWhole) (a6 : Memref sig .tc .vmem S1x32 .f32) (h6 : a6.IsWhole)
  (a7 : Memref sig .tc .vmem S256x32 .f32) (h7 : a7.IsWhole)

/-- First point: the stored block of assignments. -/
theorem out_A_4 (hc : cond0_0 i) (x0 : Vec F S2048x256 .f32) (x1 x2 : Vec F S256x32 .f32) (x3 : Vec F S1x32 .f32) :
    out0_A_4 c i a1 h1 a2 h2 a3 h3 a4 h4 a5 h5 a6 h6 a7 h7 hc x0 x1 x2 x3 = k0_pay8 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S2048x256) hz, View.ld_unit_zero (S := S256x32) hz, View.ld_unit_zero (S := S1x32) hz]

/-- First point: the column totals start from the cleared buffer. -/
theorem out_A_5 (hc : cond0_0 i) (x0 : Vec F S2048x256 .f32) (x1 x2 : Vec F S256x32 .f32) (x3 : Vec F S1x32 .f32) :
    out0_A_5 c i a1 h1 a2 h2 a3 h3 a4 h4 a5 h5 a6 h6 a7 h7 hc x0 x1 x2 x3 = k0_pay1 (k0_pay7 x0 x1 x2 x3) (k0_pay3 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h4.read_unread, View.ld_unit_zero (S := S2048x256) hz, View.ld_unit_zero (S := S256x32) hz, View.ld_unit_zero (S := S1x32) hz]

/-- First point: the weighted feature totals start from the cleared buffer. -/
theorem out_A_6 (hc : cond0_0 i) (x0 : Vec F S2048x256 .f32) (x1 x2 : Vec F S256x32 .f32) (x3 : Vec F S1x32 .f32) :
    out0_A_6 c i a1 h1 a2 h2 a3 h3 a4 h4 a5 h5 a6 h6 a7 h7 hc x0 x1 x2 x3 = k0_pay2 (k0_pay6 x0) (k0_pay7 x0 x1 x2 x3) (k0_pay4 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S256x32) hz, View.readCov_unit_zero (S := S256x32) _ hz]
  simp only [View.readAt_eq_ld, h1.read_unread, h2.read_unread, h3.read_unread, h4.read_unread, View.ld_unit_zero (S := S2048x256) hz, View.ld_unit_zero (S := S256x32) hz, View.ld_unit_zero (S := S1x32) hz]

/-- Later points: the stored block of assignments. -/
theorem out_B_4 (hc : ¬cond0_0 i) (x0 : Vec F S2048x256 .f32) (x1 x2 : Vec F S256x32 .f32) (x3 : Vec F S1x32 .f32)
    (xo5 : Vec F S1x32 .f32) (xo6 : Vec F S256x32 .f32) :
    out0_B_4 c i a1 h1 a2 h2 a3 h3 a4 h4 a5 h5 a6 h6 a7 h7 hc x0 x1 x2 x3 xo5 xo6 = k0_pay8 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, View.ld_unit_zero (S := S2048x256) hz, View.ld_unit_zero (S := S256x32) hz, View.ld_unit_zero (S := S1x32) hz]

/-- Later points: the column totals grow from what the point before left. -/
theorem out_B_5 (hc : ¬cond0_0 i) (x0 : Vec F S2048x256 .f32) (x1 x2 : Vec F S256x32 .f32) (x3 : Vec F S1x32 .f32)
    (xo5 : Vec F S1x32 .f32) (xo6 : Vec F S256x32 .f32) :
    out0_B_5 c i a1 h1 a2 h2 a3 h3 a4 h4 a5 h5 a6 h6 a7 h7 hc x0 x1 x2 x3 xo5 xo6 = k0_pay1 (k0_pay7 x0 x1 x2 x3) xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, View.ld_unit_zero (S := S2048x256) hz, View.ld_unit_zero (S := S256x32) hz, View.ld_unit_zero (S := S1x32) hz, h6.read_unread]

/-- Later points: the weighted feature totals grow from what the point before left. -/
theorem out_B_6 (hc : ¬cond0_0 i) (x0 : Vec F S2048x256 .f32) (x1 x2 : Vec F S256x32 .f32) (x3 : Vec F S1x32 .f32)
    (xo5 : Vec F S1x32 .f32) (xo6 : Vec F S256x32 .f32) :
    out0_B_6 c i a1 h1 a2 h2 a3 h3 a4 h4 a5 h5 a6 h6 a7 h7 hc x0 x1 x2 x3 xo5 xo6 = k0_pay2 (k0_pay6 x0) (k0_pay7 x0 x1 x2 x3) xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, View.ld_unit_zero (S := S2048x256) hz, View.ld_unit_zero (S := S256x32) hz, View.ld_unit_zero (S := S1x32) hz, h7.read_unread]

end Cert.KernelIdeal.Val

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.PayAssign.lean ====
/-
  The block of assignments the first kernel computes, read at one entry: row `r` of the block against component `v`
  is the assignment (`Cert.Spec.assign`) of that row of the loaded data block, with the loaded inverse squared variances,
  scaled means and constants. The two matrix products are sums over the 256 features, the row minimum a fold of `min`
  from `+inf` over the 32 components, the normaliser a sum over them; a change of float format is the identity.
-/
import proofs.«172604_j41832981463347_1_alg».proof.Proof.Gen.KernelIdeal.Skeleton
import proofs.«172604_j41832981463347_1_alg».proof.Proof.Spec
import proofs.«172604_j41832981463347_1_alg».proof.Proof.LibContraction
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.Spec

/-- A product of a 2048 × 256 block with a 256 × 32 one into a zero accumulator, at (r, v): the sum over the 256
    shared positions of the row's entry times the column's. -/
private theorem matmul_apply_rows (lhs : FVec Ideal S2048x256 .bf16) (rhs : FVec Ideal S256x32 .bf16) (r : Fin 2048) (v : Fin 32) :
    matmul dot_S2048x256_S256x32_S2048x32_1_0_0_1_n_n none lhs rhs (constant S2048x32 .f32 0x00000000#32) (ix2 r v)
      = ∑ d : Fin 256, lhs (ix2 r d) * rhs (ix2 d v) := by
  refine (Ideal.matmul_constant_zero_apply dot_S2048x256_S256x32_S2048x32_1_0_0_1_n_n none lhs rhs (ix2 r v)).trans ?_
  refine (Cert.Lib.Contraction.sum_contr dot_S2048x256_S256x32_S2048x32_1_0_0_1_n_n (cl := (1 : Fin 2)) rfl 256 rfl _).trans ?_
  refine Finset.sum_congr rfl fun i _ => ?_
  refine congrArg₂ (· * ·) (congrArg lhs (funext fun ax => Fin.ext ?_)) (congrArg rhs (funext fun ax => Fin.ext ?_))
  · match ax with
    | ⟨0, _⟩ =>
      exact Cert.Lib.Contraction.lhs_free dot_S2048x256_S256x32_S2048x32_1_0_0_1_n_n (nl := (0 : Fin 2)) rfl rfl (ix2 r v) _ (by decide)
    | ⟨1, _⟩ =>
      exact Cert.Lib.Contraction.lhs_contracted dot_S2048x256_S256x32_S2048x32_1_0_0_1_n_n (cl := (1 : Fin 2)) rfl 256 rfl (ix2 r v) i
  · match ax with
    | ⟨0, _⟩ =>
      exact Cert.Lib.Contraction.rhs_contracted dot_S2048x256_S256x32_S2048x32_1_0_0_1_n_n (cl := (1 : Fin 2)) (cr := (0 : Fin 2)) rfl rfl 256 rfl (ix2 r v) i
    | ⟨1, _⟩ =>
      exact Cert.Lib.Contraction.rhs_free dot_S2048x256_S256x32_S2048x32_1_0_0_1_n_n (nl := (0 : Fin 2)) (nr := (1 : Fin 2)) rfl rfl rfl rfl (ix2 r v) _ (by decide)

/-- The row minimum from +inf, at row r: the fold of min over the 32 entries of the row. -/
private theorem rowMin_apply (src : FVec Ideal S2048x32 .f32) (r : Fin 2048) :
    multiReduction (F := Ideal) .minimumf [1] S2048 src 0x7F800000#32 reduces_S2048x32_S2048 (.inl rfl) rfl (ix1 r)
      = (Finset.univ : Finset (Fin 32)).fold min posInf (fun u => src (ix2 r u)) := by
  refine (multiReduction_minimumf_eq_fold src _ reduces_S2048x32_S2048 _ _ (ix1 r)).trans ?_
  refine (reduces_S2048x32_S2048.fold_filter_drop_single _ _ src (ix1 r)).trans ?_
  refine congrArg (fun f : Fin 32 → EReal => Finset.fold min posInf f Finset.univ) (funext fun u => ?_)
  refine congrArg src (funext fun ax => Fin.ext ?_)
  match ax with
  | ⟨0, _⟩ => rfl
  | ⟨1, _⟩ => rfl

/-- The row sum from zero, at row r: the sum of the 32 entries of the row. -/
private theorem rowSum_apply (src : FVec Ideal S2048x32 .f32) (r : Fin 2048) :
    multiReduction (F := Ideal) .add [1] S2048 src 0x00000000#32 reduces_S2048x32_S2048 (.inl rfl) rfl (ix1 r)
      = ∑ u : Fin 32, src (ix2 r u) := by
  refine (Ideal.multiReduction_add_single src _ reduces_S2048x32_S2048 _ _ (ix1 r)).trans ?_
  refine Finset.sum_congr rfl fun u _ => congrArg src (funext fun ax => Fin.ext ?_)
  match ax with
  | ⟨0, _⟩ => rfl
  | ⟨1, _⟩ => rfl

/-- A vector of 2048 entries laid as a column and repeated along 32 columns reads, at (r, v), its entry r. -/
private theorem bcastCol_apply (x : FVec Ideal S2048 .f32) (r : Fin 2048) (v : Fin 32) :
    broadcastTo S2048x32 (shapeCast S2048x1 x shapeCasts_S2048_S2048x1) broadcasts_S2048x1_S2048x32 (ix2 r v) = x (ix1 r) := by
  refine (broadcastTo_apply _ broadcasts_S2048x1_S2048x32 (ix2 r v) (ix2 r (0 : Fin 1)) fun ax => ?_).trans ?_
  · match ax with
    | ⟨0, _⟩ => rfl
    | ⟨1, _⟩ => rfl
  · refine shapeCast_apply x shapeCasts_S2048_S2048x1 (ix2 r (0 : Fin 1)) (ix1 r) ?_
    rw [Shape.rowMajor_val_one, Shape.rowMajor_val_two]
    show r.val = r.val * 1 + 0
    omega

/-- One row of 32 entries repeated along 2048 rows reads, at (r, v), its entry v. -/
private theorem bcastRow_apply (x : FVec Ideal S1x32 .f32) (r : Fin 2048) (v : Fin 32) :
    broadcastTo S2048x32 x broadcasts_S1x32_S2048x32 (ix2 r v) = x (ix2 (0 : Fin 1) v) :=
  broadcastTo_1b_ab_apply x broadcasts_S1x32_S2048x32 r v

/-- The block of scores as the kernel forms it: the product of the squared data with the first table, less twice the
    product of the data with the second, plus the row of constants repeated along the rows. -/
private def kscore (xb : Vec Ideal S2048x256 .f32) (a b : Vec Ideal S256x32 .f32) (bias : Vec Ideal S1x32 .f32) :
    FVec Ideal S2048x32 .f32 :=
  addf
    (subf
      (matmul dot_S2048x256_S256x32_S2048x32_1_0_0_1_n_n none
        (truncf .bf16 (mulf (k0_pay5 xb) (k0_pay5 xb)) bitsLt_bf16_f32)
        (truncf .bf16 (shapeCast S256x32 a shapeCasts_S256x32_S256x32) bitsLt_bf16_f32)
        (constant S2048x32 .f32 0x00000000#32))
      (mulf (broadcast S2048x32 (Scalar.ofBits .f32 0x40000000#32))
        (matmul dot_S2048x256_S256x32_S2048x32_1_0_0_1_n_n none (k0_pay6 xb)
          (truncf .bf16 (shapeCast S256x32 b shapeCasts_S256x32_S256x32) bitsLt_bf16_f32)
          (constant S2048x32 .f32 0x00000000#32))))
    (broadcastTo S2048x32 (shapeCast S1x32 bias shapeCasts_S1x32_S1x32) broadcasts_S1x32_S2048x32)

/-- What the kernel makes of a block of scores: each row less its minimum, times -1/2, exponentiated, over the row's sum. -/
private def ksoft (S : FVec Ideal S2048x32 .f32) : FVec Ideal S2048x32 .f32 :=
  have w : FVec Ideal S2048x32 .f32 :=
    exp (mulf (broadcast S2048x32 (Scalar.ofBits .f32 0xBF000000#32))
      (subf S
        (broadcastTo S2048x32
          (shapeCast S2048x1 (multiReduction .minimumf [1] S2048 S 0x7F800000#32 reduces_S2048x32_S2048 (.inl rfl) rfl)
            shapeCasts_S2048_S2048x1)
          broadcasts_S2048x1_S2048x32)))
  divf w
    (broadcastTo S2048x32
      (shapeCast S2048x1 (multiReduction .add [1] S2048 w 0x00000000#32 reduces_S2048x32_S2048 (.inl rfl) rfl)
        shapeCasts_S2048_S2048x1)
      broadcasts_S2048x1_S2048x32)

/-- The payload is the second applied to the first. -/
private theorem pay7_split (xb : Vec Ideal S2048x256 .f32) (a b : Vec Ideal S256x32 .f32) (bias : Vec Ideal S1x32 .f32) :
    k0_pay7 (F := Ideal) xb a b bias = ksoft (kscore xb a b bias) := rfl

/-- The kernel's score at (r, u) is the specification's score of row r for component u. -/
private theorem kscore_apply (xb : Vec Ideal S2048x256 .f32) (a b : Vec Ideal S256x32 .f32) (bias : Vec Ideal S1x32 .f32)
    (r : Fin 2048) (u : Fin 32) :
    kscore xb a b bias (ix2 r u)
      = score (fun d => xb (ix2 r d)) (fun d u => a (ix2 d u)) (fun d u => b (ix2 d u)) (fun u => bias (ix2 (0 : Fin 1) u)) u := by
  have h5 : k0_pay5 (F := Ideal) xb = xb := shapeCast_self xb _
  have ha : shapeCast S256x32 a shapeCasts_S256x32_S256x32 = a := shapeCast_self a _
  have hb : shapeCast S256x32 b shapeCasts_S256x32_S256x32 = b := shapeCast_self b _
  have hbias : shapeCast S1x32 bias shapeCasts_S1x32_S1x32 = bias := shapeCast_self bias _
  unfold kscore k0_pay6 score
  rw [h5, ha, hb, hbias]
  refine congrArg₂ (· + ·) (congrArg₂ (· - ·) ?_ (congrArg₂ (· * ·) rfl ?_)) ?_
  · exact matmul_apply_rows _ _ r u
  · exact matmul_apply_rows _ _ r u
  · exact bcastRow_apply bias r u

/-- The second step at (r, v), in terms of the entries of row r. -/
private theorem ksoft_apply (S : FVec Ideal S2048x32 .f32) (r : Fin 2048) (v : Fin 32) :
    ksoft S (ix2 r v)
      = Ideal.div
          (Ideal.exp (negHalf * (S (ix2 r v) - (Finset.univ : Finset (Fin 32)).fold min posInf (fun u => S (ix2 r u)))))
          (∑ t : Fin 32,
            Ideal.exp (negHalf * (S (ix2 r t) - (Finset.univ : Finset (Fin 32)).fold min posInf (fun u => S (ix2 r u))))) := by
  have hw : ∀ t : Fin 32,
      exp (mulf (broadcast S2048x32 (Scalar.ofBits .f32 0xBF000000#32))
        (subf S
          (broadcastTo S2048x32
            (shapeCast S2048x1 (multiReduction .minimumf [1] S2048 S 0x7F800000#32 reduces_S2048x32_S2048 (.inl rfl) rfl)
              shapeCasts_S2048_S2048x1)
            broadcasts_S2048x1_S2048x32))) (ix2 r t)
        = Ideal.exp (negHalf * (S (ix2 r t) - (Finset.univ : Finset (Fin 32)).fold min posInf (fun u => S (ix2 r u)))) := by
    intro t
    refine congrArg Ideal.exp (congrArg₂ (· * ·) rfl (congrArg₂ (· - ·) rfl ?_))
    exact (bcastCol_apply _ r t).trans (rowMin_apply S r)
  unfold ksoft
  refine congrArg₂ Ideal.div (hw v) ?_
  refine (bcastCol_apply _ r v).trans ((rowSum_apply _ r).trans ?_)
  exact Finset.sum_congr rfl fun t _ => hw t

theorem pay7_apply (xb : Vec Ideal S2048x256 .f32) (a b : Vec Ideal S256x32 .f32) (bias : Vec Ideal S1x32 .f32)
    (r : Fin 2048) (v : Fin 32) :
    k0_pay7 (F := Ideal) xb a b bias (ix2 r v)
      = assign (fun d => xb (ix2 r d)) (fun d u => a (ix2 d u)) (fun d u => b (ix2 d u)) (fun u => bias (ix2 (0 : Fin 1) u)) v := by
  rw [pay7_split, ksoft_apply]
  unfold assign weight least
  simp only [kscore_apply]

end Cert.KernelIdeal.Val

end
-- ==== Proof.PayTotals.lean ====
/-
  The other stored values of the two kernels, read at one entry: the column totals grow by the block's column sums, the
  weighted feature totals by the products of the data block's columns with the assignments' columns summed over the
  block's rows, the cleared buffers are zero, and the second kernel's block is the product of a block of assignments
  with the pooled matrix, a sum over the 32 components.
-/
import proofs.«172604_j41832981463347_1_alg».proof.Proof.Gen.KernelIdeal.Skeleton
import proofs.«172604_j41832981463347_1_alg».proof.Proof.LibContraction
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

/-! ## The column sums -/

/-- The sum over the rows of a [2048, 32] block, read at column `v`. -/
private theorem colsum_apply (q : FVec Ideal S2048x32 .f32) (hφ : FKind.Formats .f32)
    (hacc : (0x00000000#32 : BitVec FTy.f32.bits) = FKind.add.neutral .f32 hφ) (v : Fin 32) :
    multiReduction (F := Ideal) .add [0] S32 q 0x00000000#32 reduces_S2048x32_S32 hφ hacc (ix1 v)
      = ∑ r : Fin 2048, q (ix2 r v) := by
  refine (Ideal.multiReduction_add_single q _ reduces_S2048x32_S32 hφ hacc (ix1 v)).trans ?_
  refine Finset.sum_congr rfl fun r _ => congrArg q ?_
  funext a
  match a with
  | ⟨0, _⟩ => exact Fin.ext rfl
  | ⟨1, _⟩ => exact Fin.ext rfl

/-- A [32] vector given a leading unit axis reads, at `(0, v)`, the vector at `v`. -/
private theorem addUnit_apply (x : FVec Ideal S32 .f32) (v : Fin 32) :
    shapeCast S1x32 x shapeCasts_S32_S1x32 (ix2 (0 : Fin 1) v) = x (ix1 v) :=
  shapeCast_a_1a_apply x shapeCasts_S32_S1x32 0 v

theorem pay1_apply (q : FVec Ideal S2048x32 .f32) (p : Vec Ideal S1x32 .f32) (v : Fin 32) :
    k0_pay1 (F := Ideal) q p (ix2 (0 : Fin 1) v) = p (ix2 (0 : Fin 1) v) + ∑ r : Fin 2048, q (ix2 r v) := by
  unfold k0_pay1
  refine (addf_apply _ _ _).trans ?_
  rw [shapeCast_self, addUnit_apply]
  exact congrArg (p (ix2 (0 : Fin 1) v) + ·) (colsum_apply q _ _ v)

/-! ## The two products -/

/-- The first kernel's product contracts the rows of both operands. -/
private theorem sumT_apply (x : FVec Ideal S2048x256 .bf16) (y : FVec Ideal S2048x32 .bf16) (d : Fin 256) (v : Fin 32) :
    matmul dot_S2048x256_S2048x32_S256x32_0_0_1_1_n_n none x y (constant (F := Ideal) S256x32 .f32 0x00000000#32) (ix2 d v)
      = ∑ r : Fin 2048, x (ix2 r d) * y (ix2 r v) := by
  refine (Ideal.matmul_constant_zero_apply dot_S2048x256_S2048x32_S256x32_0_0_1_1_n_n none x y (ix2 d v)).trans ?_
  rw [Cert.Lib.Contraction.sum_contr dot_S2048x256_S2048x32_S256x32_0_0_1_1_n_n (cl := 0) rfl 2048 rfl]
  refine Finset.sum_congr rfl fun r _ => ?_
  have hl : dot_S2048x256_S2048x32_S256x32_0_0_1_1_n_n.lhsIdx (ix2 d v)
      ((Cert.Lib.Contraction.contrFin dot_S2048x256_S2048x32_S256x32_0_0_1_1_n_n (cl := 0) rfl 2048 rfl).symm r) = ix2 r d := by
    funext a
    match a with
    | ⟨0, _⟩ =>
      exact Fin.ext (Cert.Lib.Contraction.lhs_contracted dot_S2048x256_S2048x32_S256x32_0_0_1_1_n_n (cl := 0) rfl 2048 rfl _ r)
    | ⟨1, _⟩ =>
      exact Fin.ext (Cert.Lib.Contraction.lhs_free dot_S2048x256_S2048x32_S256x32_0_0_1_1_n_n (nl := 1) rfl rfl _ _ (by decide))
  have hr : dot_S2048x256_S2048x32_S256x32_0_0_1_1_n_n.rhsIdx (ix2 d v)
      ((Cert.Lib.Contraction.contrFin dot_S2048x256_S2048x32_S256x32_0_0_1_1_n_n (cl := 0) rfl 2048 rfl).symm r) = ix2 r v := by
    funext a
    match a with
    | ⟨0, _⟩ =>
      exact Fin.ext (Cert.Lib.Contraction.rhs_contracted dot_S2048x256_S2048x32_S256x32_0_0_1_1_n_n (cl := 0) (cr := 0) rfl rfl 2048 rfl _ r)
    | ⟨1, _⟩ =>
      exact Fin.ext (Cert.Lib.Contraction.rhs_free dot_S2048x256_S2048x32_S256x32_0_0_1_1_n_n (nl := 1) (nr := 1) rfl rfl rfl rfl _ _ (by decide))
  rw [hl, hr]

theorem pay2_apply (xb : FVec Ideal S2048x256 .bf16) (q : FVec Ideal S2048x32 .f32) (p : Vec Ideal S256x32 .f32)
    (d : Fin 256) (v : Fin 32) :
    k0_pay2 (F := Ideal) xb q p (ix2 d v) = p (ix2 d v) + ∑ r : Fin 2048, xb (ix2 r d) * q (ix2 r v) := by
  unfold k0_pay2
  refine (addf_apply _ _ _).trans ?_
  rw [shapeCast_self, sumT_apply]
  rfl

/-! ## The cleared buffers -/

theorem pay3_apply (j : S1x32.Idx) : k0_pay3 (F := Ideal) j = 0 := by
  unfold k0_pay3
  exact Ideal.ofBits_zero_f32

theorem pay4_apply (j : S256x32.Idx) : k0_pay4 (F := Ideal) j = 0 := by
  unfold k0_pay4
  exact Ideal.ofBits_zero_f32

/-! ## The format changes -/

theorem pay6_apply (xb : Vec Ideal S2048x256 .f32) (j : S2048x256.Idx) : k0_pay6 (F := Ideal) xb j = xb j := by
  unfold k0_pay6 k0_pay5
  show shapeCast S2048x256 xb shapeCasts_S2048x256_S2048x256 j = xb j
  rw [shapeCast_self]

theorem pay8_apply (xb : Vec Ideal S2048x256 .f32) (a b : Vec Ideal S256x32 .f32) (bias : Vec Ideal S1x32 .f32)
    (j : S2048x32.Idx) : k0_pay8 (F := Ideal) xb a b bias j = k0_pay7 (F := Ideal) xb a b bias j := by
  unfold k0_pay8
  exact truncf_apply _ _ _

/-! ## The second kernel's product -/

/-- The second kernel's product contracts the left operand's columns with the right operand's rows. -/
private theorem prod_apply (x : FVec Ideal S4096x32 .bf16) (y : FVec Ideal S32x256 .bf16) (r : Fin 4096) (o : Fin 256) :
    matmul dot_S4096x32_S32x256_S4096x256_1_0_0_1_n_n none x y (constant (F := Ideal) S4096x256 .f32 0x00000000#32) (ix2 r o)
      = ∑ v : Fin 32, x (ix2 r v) * y (ix2 v o) := by
  refine (Ideal.matmul_constant_zero_apply dot_S4096x32_S32x256_S4096x256_1_0_0_1_n_n none x y (ix2 r o)).trans ?_
  rw [Cert.Lib.Contraction.sum_contr dot_S4096x32_S32x256_S4096x256_1_0_0_1_n_n (cl := 1) rfl 32 rfl]
  refine Finset.sum_congr rfl fun v _ => ?_
  have hl : dot_S4096x32_S32x256_S4096x256_1_0_0_1_n_n.lhsIdx (ix2 r o)
      ((Cert.Lib.Contraction.contrFin dot_S4096x32_S32x256_S4096x256_1_0_0_1_n_n (cl := 1) rfl 32 rfl).symm v) = ix2 r v := by
    funext a
    match a with
    | ⟨0, _⟩ =>
      exact Fin.ext (Cert.Lib.Contraction.lhs_free dot_S4096x32_S32x256_S4096x256_1_0_0_1_n_n (nl := 0) rfl rfl _ _ (by decide))
    | ⟨1, _⟩ =>
      exact Fin.ext (Cert.Lib.Contraction.lhs_contracted dot_S4096x32_S32x256_S4096x256_1_0_0_1_n_n (cl := 1) rfl 32 rfl _ v)
  have hr : dot_S4096x32_S32x256_S4096x256_1_0_0_1_n_n.rhsIdx (ix2 r o)
      ((Cert.Lib.Contraction.contrFin dot_S4096x32_S32x256_S4096x256_1_0_0_1_n_n (cl := 1) rfl 32 rfl).symm v) = ix2 v o := by
    funext a
    match a with
    | ⟨0, _⟩ =>
      exact Fin.ext (Cert.Lib.Contraction.rhs_contracted dot_S4096x32_S32x256_S4096x256_1_0_0_1_n_n (cl := 1) (cr := 0) rfl rfl 32 rfl _ v)
    | ⟨1, _⟩ =>
      exact Fin.ext (Cert.Lib.Contraction.rhs_free dot_S4096x32_S32x256_S4096x256_1_0_0_1_n_n (nl := 0) (nr := 1) rfl rfl rfl rfl _ _ (by decide))
  rw [hl, hr]

theorem pay_out_apply (q : Vec Ideal S4096x32 .bf16) (zo : Vec Ideal S32x256 .f32) (r : Fin 4096) (o : Fin 256) :
    k1_pay1 (F := Ideal) q zo (ix2 r o) = ∑ v : Fin 32, q (ix2 r v) * zo (ix2 v o) := by
  unfold k1_pay1
  refine (prod_apply _ _ r o).trans ?_
  rw [shapeCast_self]
  refine Finset.sum_congr rfl fun v _ => ?_
  refine congrArg (q (ix2 r v) * ·) ?_
  show shapeCast S32x256 zo shapeCasts_S32x256_S32x256 (ix2 v o) = zo (ix2 v o)
  rw [shapeCast_self]

end Cert.KernelIdeal.Val

end
-- ==== Proof.Region0Assign.lean ====
/-
  The array of assignments the first kernel leaves: every grid point writes back its block of 2048 rows, the blocks
  tile the 262144 rows, and each block's entries are the assignments of the corresponding rows of the data array.
-/
import proofs.«172604_j41832981463347_1_alg».proof.Proof.Blocks0
import proofs.«172604_j41832981463347_1_alg».proof.Proof.Pieces
import proofs.«172604_j41832981463347_1_alg».proof.Proof.PayAssign
import proofs.«172604_j41832981463347_1_alg».proof.Proof.PayTotals

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.Spec

variable (V : (c : Dev nD) → (b : Ref sig .tc) → Buf (Elt Ideal) ((c : Thread nD τ).loc b))

/-- Every row's assignment, of the arrays the region is entered with. -/
abbrev assignArr (c : Dev nD) : S262144x32.Idx → EReal :=
  assignAll (dataArr V c) (invVarArr V c) (meanArr V c) (biasArr V c)

/-- The index map of the first output's window, decided once over the grid: block row = the point's number, block column zero. -/
private theorem assignIndexFacts : ∀ t : Fin cfg0.N,
    win0_4.index t (0 : Fin 2) = t.val ∧ win0_4.index t (1 : Fin 2) = 0 :=
  (by decide +kernel : ∀ t : Fin grid0.N, _)

/-- The stored block of assignments, computed from the point's four input blocks, is at `(r, v)` the assignment of
    row `2048·t + r` of the data array. -/
private theorem pay_assign (c : Dev nD) (t : Fin cfg0.N) (r : Fin 2048) (v : Fin 32) :
    k0_pay8 (F := Ideal) (iblk0 V c 0 t) (iblk0 V c 1 t) (iblk0 V c 2 t) (iblk0 V c 3 t) (ix2 r v)
      = assignArr V c (ix2 (rowOf (blockOf t) r) v) := by
  rw [pay8_apply, pay7_apply, invVar_block V c t, mean_block V c t, bias_block V c t]
  have hx : (fun d : Fin 256 => (iblk0 V c 0 t : Vec Ideal S2048x256 .f32) (ix2 r d))
      = fun d => dataArr V c (ix2 (rowOf (blockOf t) r) d) := funext fun d => data_block V c t r d
  rw [hx]
  rfl

/-- The first output's staging buffer after ANY point holds the assignments of the point's block of rows. -/
theorem assign_block (c : Dev nD) (t : Fin cfg0.N) (r : Fin 2048) (v : Fin 32) :
    ((outsAt0 V c t.val t.isLt).1 : Vec Ideal S2048x32 .bf16) (ix2 r v) = assignArr V c (ix2 (rowOf (blockOf t) r) v) := by
  by_cases h : t.val % 128 = 0
  · rw [outsAt0_A V c t h]; dsimp only
    rw [out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) (iblk0 V c 0 t) (iblk0 V c 1 t) (iblk0 V c 2 t) (iblk0 V c 3 t)]
    exact pay_assign V c t r v
  · rw [outsAt0_B V c t h]; dsimp only
    rw [out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h' => h ((hcond0_0 t).mp h')) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2]
    exact pay_assign V c t r v

/-- What point `t` writes back to the array of assignments is its block of the array of all assignments. -/
private theorem flushed_assign (c : Dev nD) (t : Fin cfg0.N) :
    (dat0 V c).flushed 4 t = ((cfg0.win 4).blk t).view.read (Elt Ideal) (assignArr V c) := by
  obtain ⟨e0, e1⟩ := assignIndexFacts t
  show (cfg0.win 4).cut (grid0.coords t) ((dat0 V c).after 4 t) = _
  rw [after0_4]
  funext j
  have h0 : (j 0).val < 2048 := (j 0).isLt
  have h1 : (j 1).val < 32 := (j 1).isLt
  have hj : (cfg0.win 4).xinj (grid0.coords t) j = ix2 (⟨(j 0).val, h0⟩ : Fin 2048) (⟨(j 1).val, h1⟩ : Fin 32) := funext fun a => by
    match a with
    | ⟨0, _⟩ => rfl
    | ⟨1, _⟩ => rfl
  show ((outsAt0 V c t.val t.isLt).1 : Vec Ideal S2048x32 .bf16) ((cfg0.win 4).xinj (grid0.coords t) j) = _
  rw [hj, assign_block V c t, View.read_apply]
  show assignArr V c _ = assignArr V c _
  congr 1
  funext a
  apply Fin.ext
  match a with
  | ⟨0, _⟩ =>
    show t.val * 2048 + (j 0).val = win0_4.index t (0 : Fin 2) * 2048 + 1 * (j 0).val
    rw [e0]; omega
  | ⟨1, _⟩ =>
    show (j 1).val = win0_4.index t (1 : Fin 2) * 32 + 1 * (j 1).val
    rw [e1]; omega

/-- The array of assignments after the region. -/
theorem region0_assign (c : Dev nD) : (dat0 V c).arrAt 4 cfg0.N = assignArr V c := by
  have hN : cfg0.N = 128 := N_0
  refine (dat0 V c).arrAt_eq_of_cover 4 (assignArr V c) (fun t _ => flushed_assign V c t) fun i => ?_
  have hi0 : (i 0).val < 262144 := (i 0).isLt
  have hi1 : (i 1).val < 32 := (i 1).isLt
  have ht : (i 0).val / 2048 < cfg0.N := by omega
  have e0 : win0_4.index ⟨(i 0).val / 2048, ht⟩ (0 : Fin 2) = (i 0).val / 2048 := (assignIndexFacts ⟨_, ht⟩).1
  have e1 : win0_4.index ⟨(i 0).val / 2048, ht⟩ (1 : Fin 2) = 0 := (assignIndexFacts ⟨_, ht⟩).2
  refine ⟨⟨(i 0).val / 2048, ht⟩, flush0_4 _, ?_⟩
  show i ∈ ((View.whole main_v9_0).slice (win0_4.rect ⟨(i 0).val / 2048, ht⟩)).set
  rw [View.set_slice_whole, Rect.mem_set_unit]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e0]; omega
  | ⟨1, _⟩ =>
    show win0_4.index ⟨(i 0).val / 2048, ht⟩ (1 : Fin 2) * 32 ≤ (i 1).val
      ∧ (i 1).val < win0_4.index ⟨(i 0).val / 2048, ht⟩ (1 : Fin 2) * 32 + 32
    rw [e1]; omega

end Cert.KernelIdeal.Val

end
-- ==== Proof.Region0Totals.lean ====
/-
  The two totals the first kernel accumulates over its 128 grid points: after point `n` the column totals are the sums
  of the assignments over the rows of blocks `0 … n`, and the weighted feature totals the sums of feature times
  assignment over those rows; only the last point writes them back, so the arrays end at the sums over all 262144 rows.
-/
import proofs.«172604_j41832981463347_1_alg».proof.Proof.Region0Assign

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.Spec

variable (V : (c : Dev nD) → (b : Ref sig .tc) → Buf (Elt Ideal) ((c : Thread nD τ).loc b))

/-- Block `t`'s contribution to component `v`'s column total. -/
def colPart (c : Dev nD) (v : Fin 32) (t : Fin 128) : EReal := ∑ r : Fin 2048, assignArr V c (ix2 (rowOf t r) v)
/-- Block `t`'s contribution to the weighted total of feature `d`, component `v`. -/
def featPart (c : Dev nD) (d : Fin 256) (v : Fin 32) (t : Fin 128) : EReal :=
  ∑ r : Fin 2048, dataArr V c (ix2 (rowOf t r) d) * assignArr V c (ix2 (rowOf t r) v)

/-- The block of assignments computed at point `t`, before it is narrowed for storing, holds the assignments of the
    block's rows. -/
private theorem assign_wide_block (c : Dev nD) (t : Fin cfg0.N) (r : Fin 2048) (v : Fin 32) :
    k0_pay7 (F := Ideal) (iblk0 V c 0 t) (iblk0 V c 1 t) (iblk0 V c 2 t) (iblk0 V c 3 t) (ix2 r v)
      = assignArr V c (ix2 (rowOf (blockOf t) r) v) := by
  rw [pay7_apply (iblk0 V c 0 t) (iblk0 V c 1 t) (iblk0 V c 2 t) (iblk0 V c 3 t) r v,
    invVar_block V c t, mean_block V c t, bias_block V c t]
  simp only [data_block V c t]
  rfl

/-- At the first point the column totals are the block's contribution alone: the buffer was cleared. -/
private theorem col_first (c : Dev nD) (t : Fin cfg0.N) (h0 : t.val % 128 = 0) (v : Fin 32) :
    ((outsAt0 V c t.val t.isLt).2.1 : Vec Ideal S1x32 .f32) (ix2 (0 : Fin 1) v) = colPart V c v (blockOf t) := by
  rw [outsAt0_A V c t h0]; dsimp only
  rw [out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)]
  rw [pay1_apply, pay3_apply, zero_add]
  unfold colPart
  exact Finset.sum_congr rfl fun r _ => assign_wide_block V c t r v

/-- At a later point the column totals are what the point before left plus the block's contribution. -/
private theorem col_later (c : Dev nD) (t : Fin cfg0.N) (h0 : ¬t.val % 128 = 0) (v : Fin 32) :
    ((outsAt0 V c t.val t.isLt).2.1 : Vec Ideal S1x32 .f32) (ix2 (0 : Fin 1) v)
      = ((outsAt0 V c (t.val - 1) (Nat.lt_of_le_of_lt (Nat.sub_le _ _) t.isLt)).2.1 : Vec Ideal S1x32 .f32) (ix2 (0 : Fin 1) v) + colPart V c v (blockOf t) := by
  rw [outsAt0_B V c t h0]; dsimp only
  rw [out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2]
  rw [pay1_apply]
  unfold colPart
  exact congrArg _ (Finset.sum_congr rfl fun r _ => assign_wide_block V c t r v)

/-- At the first point the weighted feature totals are the block's contribution alone: the buffer was cleared. -/
private theorem feat_first (c : Dev nD) (t : Fin cfg0.N) (h0 : t.val % 128 = 0) (d : Fin 256) (v : Fin 32) :
    ((outsAt0 V c t.val t.isLt).2.2 : Vec Ideal S256x32 .f32) (ix2 d v) = featPart V c d v (blockOf t) := by
  rw [outsAt0_A V c t h0]; dsimp only
  rw [out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)]
  rw [pay2_apply, pay4_apply, zero_add]
  unfold featPart
  refine Finset.sum_congr rfl fun r _ => ?_
  rw [pay6_apply, data_block V c t r d, assign_wide_block V c t r v]

/-- At a later point the weighted feature totals are what the point before left plus the block's contribution. -/
private theorem feat_later (c : Dev nD) (t : Fin cfg0.N) (h0 : ¬t.val % 128 = 0) (d : Fin 256) (v : Fin 32) :
    ((outsAt0 V c t.val t.isLt).2.2 : Vec Ideal S256x32 .f32) (ix2 d v)
      = ((outsAt0 V c (t.val - 1) (Nat.lt_of_le_of_lt (Nat.sub_le _ _) t.isLt)).2.2 : Vec Ideal S256x32 .f32) (ix2 d v) + featPart V c d v (blockOf t) := by
  rw [outsAt0_B V c t h0]; dsimp only
  rw [out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2]
  rw [pay2_apply]
  unfold featPart
  refine congrArg _ (Finset.sum_congr rfl fun r _ => ?_)
  rw [pay6_apply, data_block V c t r d, assign_wide_block V c t r v]

/-- The running totals after point `n`. -/
theorem totals_after (c : Dev nD) : ∀ (n : ℕ) (hn : n < cfg0.N),
    (∀ v : Fin 32, ((outsAt0 V c n hn).2.1 : Vec Ideal S1x32 .f32) (ix2 (0 : Fin 1) v) = upTo (colPart V c v) n)
    ∧ (∀ (d : Fin 256) (v : Fin 32), ((outsAt0 V c n hn).2.2 : Vec Ideal S256x32 .f32) (ix2 d v) = upTo (featPart V c d v) n)
  | 0, hn => by
    refine ⟨fun v => ?_, fun d v => ?_⟩
    · rw [upTo_zero]; exact col_first V c ⟨0, hn⟩ rfl v
    · rw [upTo_zero]; exact feat_first V c ⟨0, hn⟩ rfl d v
  | n + 1, hn => by
    have hN : cfg0.N = 128 := N_0
    have hB : ¬(⟨n + 1, hn⟩ : Fin cfg0.N).val % 128 = 0 := by dsimp only; omega
    have h128 : n + 1 < 128 := by omega
    obtain ⟨ih1, ih2⟩ := totals_after c n (Nat.lt_of_succ_lt hn)
    refine ⟨fun v => ?_, fun d v => ?_⟩
    · rw [upTo_succ _ n h128, ← ih1 v]; exact col_later V c ⟨n + 1, hn⟩ hB v
    · rw [upTo_succ _ n h128, ← ih2 d v]; exact feat_later V c ⟨n + 1, hn⟩ hB d v

/-- The two totals' windows stay at block (0, 0) at every grid point: their one block is the whole array. -/
private theorem idx_col : ∀ (t : Fin cfg0.N) (a : Fin 2), win0_5.index t a = 0 :=
  (by decide +kernel : ∀ (t : Fin grid0.N) (a : Fin 2), win0_5.index t a = 0)
private theorem idx_feat : ∀ (t : Fin cfg0.N) (a : Fin 2), win0_6.index t a = 0 :=
  (by decide +kernel : ∀ (t : Fin grid0.N) (a : Fin 2), win0_6.index t a = 0)

/-- Every component's total of the assignments over all rows. -/
private abbrev colAll (c : Dev nD) : S1x32.Idx → EReal :=
  fun i => ∑ p : Fin 262144, assignArr V c (ix2 p (i 1))
/-- Every feature's and component's total of feature times assignment over all rows. -/
private abbrev featAll (c : Dev nD) : S256x32.Idx → EReal :=
  fun i => ∑ p : Fin 262144, dataArr V c (ix2 p (i 0)) * assignArr V c (ix2 p (i 1))

/-- Their block is never cut. -/
private theorem xsize_col : ∀ (t : Fin cfg0.N) (a : Fin 2), win0_5.xsize (grid0.coords t) a = main_v9_1.ty.shape.size a :=
  (by decide +kernel : ∀ (t : Fin grid0.N) (a : Fin 2), win0_5.xsize (grid0.coords t) a = main_v9_1.ty.shape.size a)
private theorem xsize_feat : ∀ (t : Fin cfg0.N) (a : Fin 2), win0_6.xsize (grid0.coords t) a = main_v9_2.ty.shape.size a :=
  (by decide +kernel : ∀ (t : Fin grid0.N) (a : Fin 2), win0_6.xsize (grid0.coords t) a = main_v9_2.ty.shape.size a)

/-- The last grid point. -/
private abbrev lastPt : Fin cfg0.N := ⟨127, by rw [show cfg0.N = 128 from N_0]; decide⟩

/-- After the last point the column totals are the sums over all rows. -/
private theorem col_last (c : Dev nD) (t : Fin cfg0.N) (hl : t.val = 127) :
    ((outsAt0 V c t.val t.isLt).2.1 : Vec Ideal S1x32 .f32) = colAll V c := by
  funext i
  obtain ⟨a, v, rfl⟩ : ∃ (a : Fin 1) (v : Fin 32), i = ix2 a v := ⟨i 0, i 1, eq_ix2 i⟩
  obtain rfl : a = 0 := Subsingleton.elim _ _
  rw [(totals_after V c t.val t.isLt).1 v, hl, upTo_last]
  show _ = ∑ p : Fin 262144, assignArr V c (ix2 p v)
  rw [sum_rows]
  rfl

/-- After the last point the weighted feature totals are the sums over all rows. -/
private theorem feat_last (c : Dev nD) (t : Fin cfg0.N) (hl : t.val = 127) :
    ((outsAt0 V c t.val t.isLt).2.2 : Vec Ideal S256x32 .f32) = featAll V c := by
  funext i
  obtain ⟨d, v, rfl⟩ : ∃ (d : Fin 256) (v : Fin 32), i = ix2 d v := ⟨i 0, i 1, eq_ix2 i⟩
  rw [(totals_after V c t.val t.isLt).2 d v, hl, upTo_last]
  show _ = ∑ p : Fin 262144, dataArr V c (ix2 p d) * assignArr V c (ix2 p v)
  rw [sum_rows]
  rfl

/-- The one write-back of the column totals, at the last point, writes the sums over all rows. -/
private theorem col_flushed (c : Dev nD) (t : Fin cfg0.N) (hf : (cfg0.win 5).flush t = true) :
    (dat0 V c).flushed 5 t = ((cfg0.win 5).blk t).view.read (Elt Ideal) (colAll V c) := by
  have hN : cfg0.N = 128 := N_0
  have hl : t.val = 127 := by have := (flush0_5 t).mp hf; have := t.isLt; omega
  show (cfg0.win 5).cut (grid0.coords t) ((dat0 V c).after 5 t) = _
  rw [after0_5, col_last V c t hl]
  have hz' : (fun a => win0_5.index t a * main_v9_1.ty.shape.size a) = fun _ => 0 :=
    funext fun a => (congrArg (· * main_v9_1.ty.shape.size a) (idx_col t a)).trans (Nat.zero_mul _)
  exact (Memref.read_access_unit_zero (Elt Ideal) main_v9_1 hz' (fun a => by rw [congrFun hz' a]; simp) (colAll V c)).symm

/-- The one write-back of the weighted feature totals, at the last point, writes the sums over all rows. -/
private theorem feat_flushed (c : Dev nD) (t : Fin cfg0.N) (hf : (cfg0.win 6).flush t = true) :
    (dat0 V c).flushed 6 t = ((cfg0.win 6).blk t).view.read (Elt Ideal) (featAll V c) := by
  have hN : cfg0.N = 128 := N_0
  have hl : t.val = 127 := by have := (flush0_6 t).mp hf; have := t.isLt; omega
  show (cfg0.win 6).cut (grid0.coords t) ((dat0 V c).after 6 t) = _
  rw [after0_6, feat_last V c t hl]
  have hz' : (fun a => win0_6.index t a * main_v9_2.ty.shape.size a) = fun _ => 0 :=
    funext fun a => (congrArg (· * main_v9_2.ty.shape.size a) (idx_feat t a)).trans (Nat.zero_mul _)
  exact (Memref.read_access_unit_zero (Elt Ideal) main_v9_2 hz' (fun a => by rw [congrFun hz' a]; simp) (featAll V c)).symm

/-- The column totals after the region: over all rows. -/
theorem region0_colTotals (c : Dev nD) :
    (dat0 V c).arrAt 5 cfg0.N = fun i : S1x32.Idx => ∑ p : Fin 262144, assignArr V c (ix2 p (i 1)) :=
  (dat0 V c).arrAt_eq_of_cover 5 (colAll V c) (col_flushed V c) fun i =>
    ⟨lastPt, (flush0_5 lastPt).mpr rfl, by
      show i ∈ ((View.whole main_v9_1).slice (win0_5.rect lastPt)).set
      rw [View.set_slice_whole, Rect.mem_set_unit]
      intro a
      show win0_5.index lastPt a * win0_5.size a ≤ (i a : Nat)
        ∧ (i a : Nat) < win0_5.index lastPt a * win0_5.size a + win0_5.xsize (grid0.coords lastPt) a
      rw [idx_col lastPt a, xsize_col lastPt a, Nat.zero_mul, Nat.zero_add]
      exact ⟨Nat.zero_le _, (i a).isLt⟩⟩

/-- The weighted feature totals after the region: over all rows. -/
theorem region0_featTotals (c : Dev nD) :
    (dat0 V c).arrAt 6 cfg0.N
      = fun i : S256x32.Idx => ∑ p : Fin 262144, dataArr V c (ix2 p (i 0)) * assignArr V c (ix2 p (i 1)) :=
  (dat0 V c).arrAt_eq_of_cover 6 (featAll V c) (feat_flushed V c) fun i =>
    ⟨lastPt, (flush0_6 lastPt).mpr rfl, by
      show i ∈ ((View.whole main_v9_2).slice (win0_6.rect lastPt)).set
      rw [View.set_slice_whole, Rect.mem_set_unit]
      intro a
      show win0_6.index lastPt a * win0_6.size a ≤ (i a : Nat)
        ∧ (i a : Nat) < win0_6.index lastPt a * win0_6.size a + win0_6.xsize (grid0.coords lastPt) a
      rw [idx_feat lastPt a, xsize_feat lastPt a, Nat.zero_mul, Nat.zero_add]
      exact ⟨Nat.zero_le _, (i a).isLt⟩⟩

end Cert.KernelIdeal.Val

end
-- ==== Proof.Region1.lean ====
/-
  The array the second kernel leaves: each of its 64 grid points writes back a block of 4096 rows, the product of the
  corresponding rows of the assignments with the pooled 32 × 256 matrix; the blocks tile the 262144 rows.
-/
import proofs.«172604_j41832981463347_1_alg».proof.Proof.Gen.KernelIdeal.Frame
import proofs.«172604_j41832981463347_1_alg».proof.Proof.PayTotals
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen

variable (V : (c : Dev nD) → (b : Ref sig .tc) → Buf (Elt Ideal) ((c : Thread nD τ).loc b))

/-- The arrays the second kernel reads, by what they are. -/
abbrev assignIn (c : Dev nD) : S262144x32.Idx → EReal := V c main_v9_0
abbrev poolIn (c : Dev nD) : S32x256.Idx → EReal := V c main_v29

/-- The zero offsets of a whole-block access, as a constant function. -/
private theorem zeroOffsets : (![0, 0] : Fin 2 → Nat) = fun _ => 0 := funext fun a => by fin_cases a <;> rfl

/-- The product of the assignments with the pooled matrix, entry by entry: row `p`, column `o` is the sum over the 32
    components of the assignment of row `p` to the component times the component's pooled entry in column `o`. -/
private abbrev pooledProduct (a0 : S262144x32.Idx → EReal) (a1 : S32x256.Idx → EReal) : S262144x256.Idx → EReal :=
  fun i => ∑ v : Fin 32, a0 (ix2 (i 0) v) * a1 (ix2 v (i 1))

/-- The block index maps over the 64 points: the assignments' block and the output's block are both block `t` of rows
    (all columns), the pooled matrix is always its one whole block. -/
private theorem blockIndices1 : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = t.val ∧ win1_2.index t (1 : Fin 2) = 0 :=
  (by decide +kernel : ∀ t : Fin grid1.N, _)

set_option maxHeartbeats 400000 in
/-- What point `t` writes back is block `t` of the product: the stored block is the product of the point's 4096 rows of
    assignments with the pooled matrix, and row `r` of the assignments' block is row `4096 t + r` of the array, which is
    the row the output's block puts its row `r` at. -/
private theorem writtenBack1 (c : Dev nD) (t : Fin cfg1.N) :
    (dat1 V c).flushed 2 t
      = ((cfg1.win 2).blk t).view.read (Elt Ideal) (pooledProduct (assignIn V c) (poolIn V c)) := by
  show (cfg1.win 2).cut (grid1.coords t) ((dat1 V c).after 2 t) = _
  rw [after1_2]
  unfold out1_2
  rw [View.canon_unit_zero zeroOffsets]
  simp only [View.ld_unit_zero (S := S4096x32) zeroOffsets, View.ld_unit_zero (S := S32x256) zeroOffsets]
  obtain ⟨e0, e1, e2, e3, e4, e5⟩ := blockIndices1 t
  funext j
  obtain ⟨r, o, rfl⟩ : ∃ (r : Fin 4096) (o : Fin 256), j = ix2 r o := ⟨j 0, j 1, eq_ix2 j⟩
  show k1_pay1 (F := Ideal) (iblk1 V c 0 t) (iblk1 V c 1 t) (ix2 r o)
      = pooledProduct (assignIn V c) (poolIn V c) (((cfg1.win 2).blk t).view.emb (ix2 r o))
  rw [pay_out_apply]
  refine Finset.sum_congr rfl fun v _ => ?_
  show assignIn V c (((cfg1.win 0).blk t).view.emb (ix2 r v)) * poolIn V c (((cfg1.win 1).blk t).view.emb (ix2 v o))
      = assignIn V c (ix2 ((((cfg1.win 2).blk t).view.emb (ix2 r o)) 0) v)
        * poolIn V c (ix2 v ((((cfg1.win 2).blk t).view.emb (ix2 r o)) 1))
  -- an element of a block sits, on each axis, at block index × block size + its coordinate inside the block
  have h0 : ((cfg1.win 0).blk t).view.emb (ix2 r v) = ix2 ((((cfg1.win 2).blk t).view.emb (ix2 r o)) 0) v := by
    funext a; apply Fin.ext
    match a with
    | ⟨0, _⟩ => show win1_0.index t (0 : Fin 2) * 4096 + 1 * r.val = win1_2.index t (0 : Fin 2) * 4096 + 1 * r.val; omega
    | ⟨1, _⟩ => show win1_0.index t (1 : Fin 2) * 32 + 1 * v.val = v.val; omega
  have h1 : ((cfg1.win 1).blk t).view.emb (ix2 v o) = ix2 v ((((cfg1.win 2).blk t).view.emb (ix2 r o)) 1) := by
    funext a; apply Fin.ext
    match a with
    | ⟨0, _⟩ => show win1_1.index t (0 : Fin 2) * 32 + 1 * v.val = v.val; omega
    | ⟨1, _⟩ => show win1_1.index t (1 : Fin 2) * 256 + 1 * o.val = win1_2.index t (1 : Fin 2) * 256 + 1 * o.val; omega
  rw [h0, h1]
  rfl

/-- An index of the output array is in point `t`'s block iff each coordinate is in the block's range on its axis. -/
private theorem inBlock1 (t : Fin cfg1.N) (i : S262144x256.Idx) :
    i ∈ ((cfg1.win 2).blk t).view.set ↔ ∀ a : Fin 2, win1_2.index t a * S4096x256.size a ≤ (i a).val
      ∧ (i a).val < win1_2.index t a * S4096x256.size a + S4096x256.size a := by
  show i ∈ ((View.whole main_v30).slice (win1_2.rect t)).set ↔ _
  rw [View.set_slice_whole, Rect.mem_set_unit]
  exact Iff.rfl

/-- The 64 blocks of 4096 rows tile the 262144 rows: row `p` is in the block of point `p / 4096`. -/
private theorem covered1 (i : S262144x256.Idx) :
    ∃ t : Fin cfg1.N, (cfg1.win 2).flush t = true ∧ i ∈ ((cfg1.win 2).blk t).view.set := by
  have hN : cfg1.N = 64 := N_1
  have hi0 : (i 0).val < 262144 := (i 0).isLt
  have hi1 : (i 1).val < 256 := (i 1).isLt
  obtain ⟨t, ht⟩ : ∃ t : Fin cfg1.N, t.val = (i 0).val / 4096 := ⟨⟨(i 0).val / 4096, by omega⟩, rfl⟩
  obtain ⟨e0, e1, e2, e3, e4, e5⟩ := blockIndices1 t
  refine ⟨t, flush1_2 t, ?_⟩
  rw [inBlock1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 256 ≤ (i 1).val ∧ (i 1).val < win1_2.index t (1 : Fin 2) * 256 + 256; omega

/-- The pooled output after the region: row `p`, column `o` is the sum over the components of assignment times pool. -/
theorem region1_out (c : Dev nD) :
    (dat1 V c).arrAt 2 cfg1.N
      = fun i : S262144x256.Idx => ∑ v : Fin 32, assignIn V c (ix2 (i 0) v) * poolIn V c (ix2 v (i 1)) :=
  (dat1 V c).arrAt_eq_of_cover 2 (pooledProduct (assignIn V c) (poolIn V c))
    (fun t _ => writtenBack1 V c t) covered1

end Cert.KernelIdeal.Val

end
-- ==== Proof.RefRead.lean ====
/-
  The reference's two totals and its result, read at an entry: the column totals and the weighted feature totals are
  sums over all 262144 rows, and the result is, row by row, the sum over the components of assignment times pooled matrix.
-/
import proofs.«172604_j41832981463347_1_alg».proof.Proof.RefStages
import proofs.«172604_j41832981463347_1_alg».proof.Proof.Spec
import Idealize.ShloMosaic.PureOps.Reduce

set_option maxRecDepth 16384

noncomputable section

open scoped BigOperators
open Idealize.ShloMosaic Idealize.ShloMosaic.TcCoe Idealize.SL.Sem Idealize.ShloMosaic.StableHlo
open Idealize.ShloMosaic.ValueIdx

namespace Cert.ReferenceIdeal.RefValue

open Cert.ReferenceIdeal Cert.ReferenceIdeal.Gen Cert.ReferenceIdeal.ReadP Cert.Spec

variable (x0 : (⟨S1x256x512x512, .f32⟩ : BufTy).Contents (Elt Ideal)) (x1 x2 : (⟨S256x32, .f32⟩ : BufTy).Contents (Elt Ideal))
  (x3 : (⟨S256x256, .f32⟩ : BufTy).Contents (Elt Ideal))

/-- The reference's per-component constants, as the one row the kernel's window holds. -/
abbrev biasRow : S1x32.Idx → EReal := fun i => val_main_v13 (F := Ideal) x1 x2 (ix1 (i 1))

/-- The column totals: over all rows. -/
theorem colTotals_apply (v : Fin 32) :
    val_main_v28 (F := Ideal) x0 x1 x2 (ix1 v) = ∑ p : Fin 262144, val_main_v27 (F := Ideal) x0 x1 x2 (ix2 p v) := by
  rw [val_main_v28_apply, val_main_cst_5_apply, Ideal.ofBits_def, Ideal.ofBits_zero_f32, zero_add]
  refine Finset.sum_congr rfl fun p _ => ?_
  exact congrArg _ (funext fun a => Fin.ext (by match a with | ⟨0, _⟩ => rfl | ⟨1, _⟩ => rfl))

/-- The weighted feature totals: over all rows. -/
theorem featTotals_apply (d : Fin 256) (v : Fin 32) :
    val_main_v30 (F := Ideal) x0 x1 x2 (ix2 d v)
      = ∑ p : Fin 262144, val_main_v0 (F := Ideal) x0 (ix2 p d) * val_main_v27 (F := Ideal) x0 x1 x2 (ix2 p v) := by
  rw [val_main_v30_apply]
  refine Finset.sum_congr rfl fun p _ => ?_
  rw [val_main_v29_apply]
  have e0 : idx_main_v29 (lidx_main_v30 (ix2 d v) p) = ix2 p d := (funext fun a => Fin.ext (by match a with | ⟨0, _⟩ => rfl | ⟨1, _⟩ => rfl))
  have e1 : ridx_main_v30 (ix2 d v) p = ix2 p v := (funext fun a => Fin.ext (by match a with | ⟨0, _⟩ => rfl | ⟨1, _⟩ => rfl))
  rw [e0, e1]

/-- The pooled output: the sum over the components. -/
theorem out_apply (p : Fin 262144) (o : Fin 256) :
    val_main_v50 (F := Ideal) x0 x1 x2 x3 (ix2 p o)
      = ∑ v : Fin 32, val_main_v27 (F := Ideal) x0 x1 x2 (ix2 p v) * val_main_v49 (F := Ideal) x0 x1 x2 x3 (ix2 v o) := by
  rw [val_main_v50_apply]
  refine Finset.sum_congr rfl fun v _ => ?_
  have e0 : lidx_main_v50 (ix2 p o) v = ix2 p v := (funext fun a => Fin.ext (by match a with | ⟨0, _⟩ => rfl | ⟨1, _⟩ => rfl))
  have e1 : ridx_main_v50 (ix2 p o) v = ix2 v o := (funext fun a => Fin.ext (by match a with | ⟨0, _⟩ => rfl | ⟨1, _⟩ => rfl))
  rw [e0, e1]

end Cert.ReferenceIdeal.RefValue

end
-- ==== Proof.RefAssign.lean ====
/-
  The reference's assignment array, read at an entry in the words of the specification: row `p`, component `v` is the
  assignment (`Cert.Spec.assign`) of row `p` of the reshaped data against the reference's own inverse squared variances,
  scaled means and constants. Its two matrix products are sums over the 256 features, its row minimum a fold of `min`
  from `+inf` over the 32 components, its normaliser zero plus the sum over them.
-/
import proofs.«172604_j41832981463347_1_alg».proof.Proof.RefRead

set_option maxRecDepth 16384

noncomputable section

open scoped BigOperators
open Idealize.ShloMosaic Idealize.ShloMosaic.TcCoe Idealize.SL.Sem Idealize.ShloMosaic.StableHlo
open Idealize.ShloMosaic.ValueIdx

namespace Cert.ReferenceIdeal.RefValue

open Cert.ReferenceIdeal Cert.ReferenceIdeal.Gen Cert.ReferenceIdeal.ReadP Cert.Spec

variable (x0 : (⟨S1x256x512x512, .f32⟩ : BufTy).Contents (Elt Ideal)) (x1 x2 : (⟨S256x32, .f32⟩ : BufTy).Contents (Elt Ideal))

/-! ## The composed index maps at an entry -/

/-- Both products over the features read the left operand at `(p, k)` and the right at `(k, v)`. -/
private theorem lidx5_eq (p : Fin 262144) (v : Fin 32) (k : Fin 256) : lidx_main_v5 (ix2 p v) k = ix2 p k :=
  funext fun a => Fin.ext (by match a with | ⟨0, _⟩ => rfl | ⟨1, _⟩ => rfl)
private theorem ridx5_eq (p : Fin 262144) (v : Fin 32) (k : Fin 256) : ridx_main_v5 (ix2 p v) k = ix2 k v :=
  funext fun a => Fin.ext (by match a with | ⟨0, _⟩ => rfl | ⟨1, _⟩ => rfl)
private theorem lidx7_eq (p : Fin 262144) (v : Fin 32) (k : Fin 256) : lidx_main_v7 (ix2 p v) k = ix2 p k :=
  funext fun a => Fin.ext (by match a with | ⟨0, _⟩ => rfl | ⟨1, _⟩ => rfl)
private theorem ridx7_eq (p : Fin 262144) (v : Fin 32) (k : Fin 256) : ridx_main_v7 (ix2 p v) k = ix2 k v :=
  funext fun a => Fin.ext (by match a with | ⟨0, _⟩ => rfl | ⟨1, _⟩ => rfl)
/-- The per-component constant, broadcast to every row, is read at the component. -/
private theorem idx1415_eq (p : Fin 262144) (v : Fin 32) : idx_main_v14 (idx_main_v15 (ix2 p v)) = ix1 v :=
  funext fun a => Fin.ext (by match a with | ⟨0, _⟩ => rfl)
/-- Row `p` with component `k` put back on the reduced axis is the entry `(p, k)`. -/
private theorem lift17_eq (h : S262144x32.Reduces [1] S262144) (p : Fin 262144) (k : Fin 32) :
    h.lift (ix1 p) k = ix2 p k :=
  funext fun a => Fin.ext (by match a with | ⟨0, _⟩ => rfl | ⟨1, _⟩ => rfl)
/-- A per-row value, broadcast along the components, is read at the row. -/
private theorem idx1819_eq (p : Fin 262144) (v : Fin 32) : idx_main_v18 (idx_main_v19 (ix2 p v)) = ix1 p :=
  funext fun a => Fin.ext (by match a with | ⟨0, _⟩ => rfl)
private theorem idx2526_eq (p : Fin 262144) (v : Fin 32) : idx_main_v25 (idx_main_v26 (ix2 p v)) = ix1 p :=
  funext fun a => Fin.ext (by match a with | ⟨0, _⟩ => rfl)
/-- The row sum's `k`-th term is the entry `(p, k)`. -/
private theorem idx24_eq (p : Fin 262144) (k : Fin 32) : idx_main_v24 (ix1 p) k = ix2 p k :=
  funext fun a => Fin.ext (by match a with | ⟨0, _⟩ => rfl | ⟨1, _⟩ => rfl)

/-! ## Stage by stage -/

/-- The score: the product of the squared row with the inverse squared variances, less twice the product of the row
    with the scaled means, plus the component's constant. -/
private theorem score_eq (p : Fin 262144) (v : Fin 32) :
    val_main_v16 (F := Ideal) x0 x1 x2 (ix2 p v)
      = Spec.score (fun d => val_main_v0 (F := Ideal) x0 (ix2 p d)) (fun d u => val_main_v3 (F := Ideal) x2 (ix2 d u))
          (fun d u => val_main_v6 (F := Ideal) x1 x2 (ix2 d u)) (fun u => val_main_v13 (F := Ideal) x1 x2 (ix1 u)) v := by
  rw [val_main_v16_apply, val_main_v10_apply, val_main_v5_apply, val_main_v9_apply, val_main_v8_apply,
    val_main_cst_0_apply, val_main_v7_apply, val_main_v15_apply, val_main_v14_apply, idx1415_eq]
  simp only [val_main_v4_apply, lidx5_eq, ridx5_eq, lidx7_eq, ridx7_eq, Ideal.addf_def, Ideal.subf_def, Ideal.mulf_def,
    Ideal.ofBits_def]
  rfl

/-- The row minimum: `min` is commutative and associative, so the reduction over the component axis is the fold of
    `min` from `+inf` over the row's 32 scores. -/
private theorem least_eq (p : Fin 262144) :
    val_main_v17 (F := Ideal) x0 x1 x2 (ix1 p)
      = Spec.least (fun d => val_main_v0 (F := Ideal) x0 (ix2 p d)) (fun d u => val_main_v3 (F := Ideal) x2 (ix2 d u))
          (fun d u => val_main_v6 (F := Ideal) x1 x2 (ix2 d u)) (fun u => val_main_v13 (F := Ideal) x1 x2 (ix1 u)) := by
  have h : S262144x32.Reduces [1] S262144 := by decide
  unfold val_main_v17 Spec.least
  rw [Host.reduce_eq_fold_single _ _ _ reducesTo_S262144x32_S262144_d1 h h_S_ (ix1 p)]
  have hf : (val_main_v16 (F := Ideal) x0 x1 x2 ∘ h.lift (ix1 p))
      = Spec.score (fun d => val_main_v0 (F := Ideal) x0 (ix2 p d)) (fun d u => val_main_v3 (F := Ideal) x2 (ix2 d u))
          (fun d u => val_main_v6 (F := Ideal) x1 x2 (ix2 d u)) (fun u => val_main_v13 (F := Ideal) x1 x2 (ix1 u)) :=
    funext fun (k : Fin 32) =>
      (congrArg (val_main_v16 (F := Ideal) x0 x1 x2) (lift17_eq h p k)).trans (score_eq x0 x1 x2 p k)
  rw [hf]
  rfl

/-- The unnormalised weight: the exponential of `-1/2` times the score's excess over the row minimum. -/
private theorem weight_eq (p : Fin 262144) (v : Fin 32) :
    val_main_v23 (F := Ideal) x0 x1 x2 (ix2 p v)
      = Spec.weight (fun d => val_main_v0 (F := Ideal) x0 (ix2 p d)) (fun d u => val_main_v3 (F := Ideal) x2 (ix2 d u))
          (fun d u => val_main_v6 (F := Ideal) x1 x2 (ix2 d u)) (fun u => val_main_v13 (F := Ideal) x1 x2 (ix1 u)) v := by
  rw [val_main_v23_apply, val_main_v22_apply, val_main_v21_apply, val_main_cst_3_apply, val_main_v20_apply,
    val_main_v19_apply, val_main_v18_apply, idx1819_eq, score_eq, least_eq]
  rfl

/-- The assignment array is every row's assignment: the weight over the row's sum of weights, whose initial zero adds
    nothing. -/
theorem assign_eq :
    (val_main_v27 (F := Ideal) x0 x1 x2 : S262144x32.Idx → EReal)
      = assignAll (val_main_v0 (F := Ideal) x0) (val_main_v3 (F := Ideal) x2) (val_main_v6 (F := Ideal) x1 x2) (biasRow x1 x2) := by
  funext i
  obtain ⟨p, v, rfl⟩ : ∃ (p : Fin 262144) (v : Fin 32), i = ix2 p v := ⟨i 0, i 1, eq_ix2 i⟩
  rw [val_main_v27_apply, val_main_v26_apply, val_main_v25_apply, idx2526_eq, val_main_v24_apply, val_main_cst_4_apply,
    weight_eq]
  simp only [idx24_eq, weight_eq, Ideal.ofBits_def, Ideal.ofBits_zero_f32, zero_add, Ideal.hostDivf_def]
  rfl

end Cert.ReferenceIdeal.RefValue

end
-- ==== Proof.KernelValue.lean ====
/-
  The idealized kernel's result array is the reference's last stage of the kernel's own arguments.

  The arrays the first call is entered with are the reference's first stages (the data reshaped to rows, the squared
  inverse variances, the means scaled by them, the per-component constants), so the assignments it leaves are the
  reference's assignment array; its two totals, accumulated block by block, are the reference's sums over all rows;
  the host operations between the calls are the reference's own chain, carried as one function and never opened; and
  the second call's product is, row by row, the reference's last matrix product.
-/
import proofs.«172604_j41832981463347_1_alg».proof.Proof.Fold
import proofs.«172604_j41832981463347_1_alg».proof.Proof.Region0Totals
import proofs.«172604_j41832981463347_1_alg».proof.Proof.Region1
import proofs.«172604_j41832981463347_1_alg».proof.Proof.RunValue
import proofs.«172604_j41832981463347_1_alg».proof.Proof.RefAssign
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.ReferenceIdeal.ReadP Cert.ReferenceIdeal.RefValue

/-! ## The reference's stages in the kernel's words, at any float family -/

section Stages

variable {F : FTy → Type} [FloatOps F]

theorem stage_data (x0 : Vec F S1x256x512x512 .f32) :
    val_main_v0 (F := F) x0 = shapeCast S262144x256 x0 shapeCasts_S1x256x512x512_S262144x256 := rfl

theorem stage_invVar2 (x2 : Vec F S256x32 .f32) : val_main_v3 (F := F) x2 = mulf (invVar x2) (invVar x2) := rfl

theorem stage_mean (x1 x2 : Vec F S256x32 .f32) :
    val_main_v6 (F := F) x1 x2 = mulf x1 (mulf (invVar x2) (invVar x2)) := rfl

theorem stage_bias (x1 x2 : Vec F S256x32 .f32) :
    val_main_v13 (F := F) x1 x2
      = Host.reduceAdd (F := F) (mulf (mulf x1 x1) (mulf (invVar x2) (invVar x2))) (constant (F := F) S_ .f32 0x00000000#32)
          reducesTo_S256x32_S32_d0 h_S_ := rfl

/-- The reference's pooled matrix is the kernel's host chain applied to the reference's own totals. -/
theorem ref_pool (x0 : Vec F S1x256x512x512 .f32) (x1 x2 : Vec F S256x32 .f32) (x3 : Vec F S256x256 .f32) :
    val_main_v49 (F := F) x0 x1 x2 x3
      = pool (val_main_v28 (F := F) x0 x1 x2) (val_main_v30 (F := F) x0 x1 x2) x1 (invVar x2) x3 := rfl

end Stages

variable (m : (ℓ : Loc nD τ sig) → Buf (Elt Ideal) ℓ) (ρ : Dev nD → PrngReg)

/-! ## The first call's entry arrays -/

theorem data_eq (c : Dev nD) : dataArr (V1 m ρ) c = val_main_v0 (F := Ideal) (argX m c) := by
  show (V1 m ρ c main_v0 : Vec Ideal S262144x256 .f32) = _
  rw [entry0_data, stage_data]

theorem invVar2_eq (c : Dev nD) : invVarArr (V1 m ρ) c = val_main_v3 (F := Ideal) (argVar m c) := by
  show (V1 m ρ c main_v3 : Vec Ideal S256x32 .f32) = _
  rw [entry0_invVar2, stage_invVar2]

theorem mean_eq (c : Dev nD) : meanArr (V1 m ρ) c = val_main_v6 (F := Ideal) (argW m c) (argVar m c) := by
  show (V1 m ρ c main_v4 : Vec Ideal S256x32 .f32) = _
  rw [entry0_mean, stage_mean]

theorem bias_eq (c : Dev nD) : biasArr (V1 m ρ) c = biasRow (argW m c) (argVar m c) := by
  show (V1 m ρ c main_v8 : Vec Ideal S1x32 .f32) = _
  rw [entry0_bias, ← stage_bias]
  funext i
  obtain ⟨u, v, rfl⟩ : ∃ (u : Fin 1) (v : Fin 32), i = ix2 u v := ⟨i 0, i 1, eq_ix2 i⟩
  rw [shapeCast_a_1a_apply]

/-! ## What the first call leaves -/

/-- The assignments are the reference's. -/
theorem assignArr_eq (c : Dev nD) :
    assignArr (V1 m ρ) c = val_main_v27 (F := Ideal) (argX m c) (argW m c) (argVar m c) := by
  show Cert.Spec.assignAll (dataArr (V1 m ρ) c) (invVarArr (V1 m ρ) c) (meanArr (V1 m ρ) c) (biasArr (V1 m ρ) c) = _
  rw [data_eq, invVar2_eq, mean_eq, bias_eq, ← assign_eq]

/-- The column totals are the reference's. -/
theorem colTotals_eq (c : Dev nD) :
    shapeCast S32 ((dat0 (V1 m ρ) c).arrAt 5 cfg0.N : Vec Ideal S1x32 .f32) shapeCasts_S1x32_S32
      = val_main_v28 (F := Ideal) (argX m c) (argW m c) (argVar m c) := by
  funext j
  obtain ⟨v, rfl⟩ : ∃ v : Fin 32, j = ix1 v := ⟨j 0, eq_ix1 j⟩
  rw [shapeCast_1a_a_apply, region0_colTotals, colTotals_apply]
  show ∑ p : Fin 262144, assignArr (V1 m ρ) c (ix2 p v) = _
  rw [assignArr_eq]

/-- The weighted feature totals are the reference's. -/
theorem featTotals_eq (c : Dev nD) :
    ((dat0 (V1 m ρ) c).arrAt 6 cfg0.N : Vec Ideal S256x32 .f32)
      = val_main_v30 (F := Ideal) (argX m c) (argW m c) (argVar m c) := by
  funext i
  obtain ⟨d, v, rfl⟩ : ∃ (d : Fin 256) (v : Fin 32), i = ix2 d v := ⟨i 0, i 1, eq_ix2 i⟩
  rw [region0_featTotals, featTotals_apply]
  show ∑ p : Fin 262144, dataArr (V1 m ρ) c (ix2 p d) * assignArr (V1 m ρ) c (ix2 p v) = _
  rw [data_eq, assignArr_eq]

/-! ## The second call's entry arrays -/

theorem assignIn_eq (c : Dev nD) :
    assignIn (V4 m ρ) c = val_main_v27 (F := Ideal) (argX m c) (argW m c) (argVar m c) := by
  show (V4 m ρ c main_v9_0 : S262144x32.Idx → EReal) = _
  rw [entry1_assign, region0_assign, assignArr_eq]

theorem poolIn_eq (c : Dev nD) :
    poolIn (V4 m ρ) c = val_main_v49 (F := Ideal) (argX m c) (argW m c) (argVar m c) (argWt m c) := by
  show (V4 m ρ c main_v29 : Vec Ideal S32x256 .f32) = _
  rw [entry1_pool, colTotals_eq, featTotals_eq, ref_pool]

/-! ## The result -/

/-- The last boundary's contents at the result buffer are the reference's last stage of the kernel's arguments. -/
theorem result_eq (c : Dev nD) :
    (W6 m ρ c (Proc.devRef .tc main_v31) : Vec Ideal S1x256x512x512 .f32)
      = val_main_v51 (F := Ideal) (argX m c) (argW m c) (argVar m c) (argWt m c) := by
  have key : ((dat1 (V4 m ρ) c).arrAt 2 cfg1.N : Vec Ideal S262144x256 .f32)
      = val_main_v50 (F := Ideal) (argX m c) (argW m c) (argVar m c) (argWt m c) := by
    rw [region1_out]
    funext i
    obtain ⟨p, o, rfl⟩ : ∃ (p : Fin 262144) (o : Fin 256), i = ix2 p o := ⟨i 0, i 1, eq_ix2 i⟩
    rw [out_apply]
    show ∑ v : Fin 32, assignIn (V4 m ρ) c (ix2 p v) * poolIn (V4 m ρ) c (ix2 v o) = _
    rw [assignIn_eq, poolIn_eq]
  rw [exit_result, key]
  rfl

/-- The idealized kernel's run, its result named by the reference's stages. -/
theorem run : θ_run defs (onTc (τ := τ) (main (F := Ideal))) ⟨m, fun _ => 0, ρ⟩ (fun r => ∀ c : Dev nD,
      r.2.mem ((c.tc : Thread nD τ).loc main_v31)
        = val_main_v51 (F := Ideal) (argX m c) (argW m c) (argVar m c) (argWt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (Cert.KernelIdeal.GenP.run_value m ρ)

end Cert.KernelIdeal.Val

end
-- ==== Proof.lean ====
/-
  The certificate of a soft-assignment pooling kernel against its jnp reference, over the extended reals.

  Both programs reshape the data to 262144 rows of 256 features, score every row against 32 components (two matrix
  products and a constant), turn the scores into a row-stochastic assignment by a softmin, total the assignments and the
  assignment-weighted features over all rows, turn those totals into a 32 × 256 pooled matrix by the same host
  operations, and multiply the assignments by it. The kernel does the first and the last step in two pallas_calls:
  the first walks 128 blocks of 2048 rows, writing each block's assignments back and accumulating the two totals in
  output blocks that stay in place; the second walks 64 blocks of 4096 rows. At the extended reals a sum's grouping
  does not matter, so the totals accumulated block by block are the reference's sums over all rows, and every other
  step is the same function on both sides. No law needs the inputs finite: the precondition is never opened.

  The three frames: the two kernel programs' are generated; the reference's is its run with the result dropped.
  The idealization rewrote nothing. The value claim: both runs end with the result array at the reference's last
  stage of arguments that agree.
-/
import proofs.«172604_j41832981463347_1_alg».proof.Defs
import proofs.«172604_j41832981463347_1_alg».proof.Proof.Gen.Kernel
import proofs.«172604_j41832981463347_1_alg».proof.Proof.Gen.Kernel.Frame
import proofs.«172604_j41832981463347_1_alg».proof.Proof.Gen.KernelIdeal
import proofs.«172604_j41832981463347_1_alg».proof.Proof.Gen.KernelIdeal.Frame
import proofs.«172604_j41832981463347_1_alg».proof.Proof.Gen.ReferenceIdeal
import proofs.«172604_j41832981463347_1_alg».proof.Proof.Gen.Pre_finite_inputs
import proofs.«172604_j41832981463347_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both runs end at the reference's last stage: the kernel's of its own arguments, the reference's of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
